-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S200000x128 : Shape := ⟨2, ![200000, 128]⟩
abbrev S400000x6 : Shape := ⟨2, ![400000, 6]⟩
abbrev S200000x2 : Shape := ⟨2, ![200000, 2]⟩
abbrev S51x128 : Shape := ⟨2, ![51, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S400000x1 : Shape := ⟨2, ![400000, 1]⟩
abbrev S400000 : Shape := ⟨1, ![400000]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S51x128 : S_.BroadcastsInDim S51x128 (![] : Fin 0 → Fin S51x128.rank)
  reducesTo_S51x128_S_d0_1 : S51x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S400000x6_S400000x1_0_4 : S400000x6.Slices ![0, 4] S400000x1
  shapeCasts_S400000x1_S400000 : S400000x1.ShapeCasts S400000
  bcast_S_S400000 : S_.BroadcastsInDim S400000 (![] : Fin 0 → Fin S400000.rank)
  reducesTo_S400000_S_d0 : S400000.ReducesTo [0] S_
  bcast_S_S256 : S_.BroadcastsInDim S256 (![] : Fin 0 → Fin S256.rank)
  reducesTo_S256_S_d0 : S256.ReducesTo [0] S_
  slices_S400000x6_S400000x1_0_2 : S400000x6.Slices ![0, 2] S400000x1
  slices_S400000x6_S400000x1_0_0 : S400000x6.Slices ![0, 0] S400000x1

variable [Facts]

def fn_part4 {F : FTy → Type} [FloatOps F] (main_v64 : IVec S_ 1) (main_v68 : IVec S400000 1) (main_v69 : IVec S400000x1 32) : IVec S_ 1 :=
  let main_v70 : IVec S400000 32 := shapeCast S400000 main_v69 shapeCasts_S400000x1_S400000
  let main_c_24 : IVec S_ 32 := constantI S_ 32 256#32
  let main_v71 : IVec S400000 32 := broadcastInDim S400000 ![] bcast_S_S400000 main_c_24
  let main_v72 : IVec S400000 1 := cmpi .slt main_v70 main_v71
  let main_v73 : IVec S400000 1 := andi main_v68 main_v72
  let main_c_25 : IVec S_ 1 := constantI S_ 1 1#1
  let main_v74 : IVec S_ 1 := (fun x v => Host.reduce IntOp.andi x v reducesTo_S400000_S_d0 h_S_) main_v73 main_c_25
  let main_v75 : IVec S_ 1 := andi main_v64 main_v74
  main_v75

def fn_part3 {F : FTy → Type} [FloatOps F] (main_arg1 : IVec S256 32) (main_arg3 : IVec S400000x6 32) (main_v49 : IVec S_ 1) (main_v50 : IVec S256 32) : IVec S_ 1 :=
  let main_v51 : IVec S256 1 := cmpi .sge main_arg1 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v49 main_v52
  let main_v54 : IVec S400000x1 32 := (extractStridedSlice S400000x1 ![0, 2] · slices_S400000x6_S400000x1_0_2) main_arg3
  let main_v55 : IVec S400000 32 := shapeCast S400000 main_v54 shapeCasts_S400000x1_S400000
  let main_c_20 : IVec S_ 32 := constantI S_ 32 0#32
  let main_v56 : IVec S400000 32 := broadcastInDim S400000 ![] bcast_S_S400000 main_c_20
  let main_v57 : IVec S400000 1 := cmpi .sge main_v55 main_v56
  let main_v58 : IVec S400000x1 32 := (extractStridedSlice S400000x1 ![0, 2] · slices_S400000x6_S400000x1_0_2) main_arg3
  let main_v59 : IVec S400000 32 := shapeCast S400000 main_v58 shapeCasts_S400000x1_S400000
  let main_c_21 : IVec S_ 32 := constantI S_ 32 51#32
  let main_v60 : IVec S400000 32 := broadcastInDim S400000 ![] bcast_S_S400000 main_c_21
  let main_v61 : IVec S400000 1 := cmpi .slt main_v59 main_v60
  let main_v62 : IVec S400000 1 := andi main_v57 main_v61
  let main_c_22 : IVec S_ 1 := constantI S_ 1 1#1
  let main_v63 : IVec S_ 1 := (fun x v => Host.reduce IntOp.andi x v reducesTo_S400000_S_d0 h_S_) main_v62 main_c_22
  let main_v64 : IVec S_ 1 := andi main_v53 main_v63
  let main_v65 : IVec S400000x1 32 := (extractStridedSlice S400000x1 ![0, 0] · slices_S400000x6_S400000x1_0_0) main_arg3
  let main_v66 : IVec S400000 32 := shapeCast S400000 main_v65 shapeCasts_S400000x1_S400000
  let main_c_23 : IVec S_ 32 := constantI S_ 32 0#32
  let main_v67 : IVec S400000 32 := broadcastInDim S400000 ![] bcast_S_S400000 main_c_23
  let main_v68 : IVec S400000 1 := cmpi .sge main_v66 main_v67
  let main_v69 : IVec S400000x1 32 := (extractStridedSlice S400000x1 ![0, 0] · slices_S400000x6_S400000x1_0_0) main_arg3
  fn_part4 (F := F) main_v64 main_v68 main_v69

def fn_part2 {F : FTy → Type} [FloatOps F] (main_arg1 : IVec S256 32) (main_arg3 : IVec S400000x6 32) (main_arg11 : FVec F S1 .f32) (main_arg12 : FVec F S128x128 .f32) (main_v33 : IVec S_ 1) : IVec S_ 1 :=
  let main_v34 : FVec F S1 .f32 := Host.absf main_arg11
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : IVec S400000x1 32 := (extractStridedSlice S400000x1 ![0, 4] · slices_S400000x6_S400000x1_0_4) main_arg3
  let main_v45 : IVec S400000 32 := shapeCast S400000 main_v44 shapeCasts_S400000x1_S400000
  let main_c_16 : IVec S_ 32 := constantI S_ 32 0#32
  let main_v46 : IVec S400000 32 := broadcastInDim S400000 ![] bcast_S_S400000 main_c_16
  let main_v47 : IVec S400000 1 := cmpi .sge main_v45 main_v46
  let main_c_17 : IVec S_ 1 := constantI S_ 1 1#1
  let main_v48 : IVec S_ 1 := (fun x v => Host.reduce IntOp.andi x v reducesTo_S400000_S_d0 h_S_) main_v47 main_c_17
  let main_v49 : IVec S_ 1 := andi main_v43 main_v48
  let main_c_18 : IVec S_ 32 := constantI S_ 32 0#32
  let main_v50 : IVec S256 32 := broadcastInDim S256 ![] bcast_S_S256 main_c_18
  fn_part3 (F := F) main_arg1 main_arg3 main_v49 main_v50

def fn_part1 {F : FTy → Type} [FloatOps F] (main_arg1 : IVec S256 32) (main_arg3 : IVec S400000x6 32) (main_arg8 : FVec F S128x128 .f32) (main_arg9 : FVec F S128 .f32) (main_arg10 : FVec F S128x1 .f32) (main_arg11 : FVec F S1 .f32) (main_arg12 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg10
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg1 main_arg3 main_arg11 main_arg12 main_v33

def fn {F : FTy → Type} [FloatOps F] (main_arg0 : IVec S256 32) (main_arg1 : IVec S256 32) (main_arg2 : FVec F S200000x128 .f32) (main_arg3 : IVec S400000x6 32) (main_arg4 : IVec S200000x2 32) (main_arg5 : FVec F S51x128 .f32) (main_arg6 : FVec F S128x128 .f32) (main_arg7 : FVec F S128x128 .f32) (main_arg8 : FVec F S128x128 .f32) (main_arg9 : FVec F S128 .f32) (main_arg10 : FVec F S128x1 .f32) (main_arg11 : FVec F S1 .f32) (main_arg12 : FVec F S128x128 .f32) : IVec S_ 1 :=
  let main_v0 : FVec F S200000x128 .f32 := Host.absf main_arg2
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S51x128 .f32 := Host.absf main_arg5
  let main_cst_0 : FVec F S_ .f32 := constant S_ .f32 0x7F800000#32
  let main_v5 : FVec F S51x128 .f32 := broadcastInDim S51x128 ![] bcast_S_S51x128 main_cst_0
  let main_v6 : IVec S51x128 1 := cmpf .olt main_v4 main_v5
  let main_c_1 : IVec S_ 1 := constantI S_ 1 1#1
  let main_v7 : IVec S_ 1 := (fun x v => Host.reduce IntOp.andi x v reducesTo_S51x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg3 main_arg8 main_arg9 main_arg10 main_arg11 main_arg12 main_v13 main_v16
-- ==== Kernel.lean ====
abbrev S256 : Shape := ⟨1, ![256]⟩
abbrev S200000x128 : Shape := ⟨2, ![200000, 128]⟩
abbrev S400000x6 : Shape := ⟨2, ![400000, 6]⟩
abbrev S200000x2 : Shape := ⟨2, ![200000, 2]⟩
abbrev S51x128 : Shape := ⟨2, ![51, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S200000x1 : Shape := ⟨2, ![200000, 1]⟩
abbrev S200000 : Shape := ⟨1, ![200000]⟩
abbrev S_ : Shape := ⟨0, ![]⟩
abbrev S400000x1 : Shape := ⟨2, ![400000, 1]⟩
abbrev S400000 : Shape := ⟨1, ![400000]⟩
abbrev S400000x128 : Shape := ⟨2, ![400000, 128]⟩
abbrev S256x1 : Shape := ⟨2, ![256, 1]⟩
abbrev S256x128 : Shape := ⟨2, ![256, 128]⟩
abbrev S51x256 : Shape := ⟨2, ![51, 256]⟩
abbrev S100x1x4000 : Shape := ⟨3, ![100, 1, 4000]⟩
abbrev S1x128 : Shape := ⟨2, ![1, 128]⟩
abbrev S1x1 : Shape := ⟨2, ![1, 1]⟩
abbrev S4000x128 : Shape := ⟨2, ![4000, 128]⟩
abbrev S1x1x4000 : Shape := ⟨3, ![1, 1, 4000]⟩
abbrev S1x4000 : Shape := ⟨2, ![1, 4000]⟩
abbrev S51x4000 : Shape := ⟨2, ![51, 4000]⟩
abbrev S256x4000 : Shape := ⟨2, ![256, 4000]⟩
abbrev S4000x256 : Shape := ⟨2, ![4000, 256]⟩
abbrev S4000x1 : Shape := ⟨2, ![4000, 1]⟩

abbrev nBuf : Space → Nat
  | .hbm => 50
  | .vmem => 17
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S200000x128, .f32⟩
  | .hbm, ⟨3, _⟩ => ⟨S400000x6, .i32⟩
  | .hbm, ⟨4, _⟩ => ⟨S200000x2, .i32⟩
  | .hbm, ⟨5, _⟩ => ⟨S51x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S200000x1, .i32⟩
  | .hbm, ⟨19, _⟩ => ⟨S200000, .i32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S200000, .i1⟩
  | .hbm, ⟨24, _⟩ => ⟨S400000x1, .i32⟩
  | .hbm, ⟨25, _⟩ => ⟨S400000, .i32⟩
  | .hbm, ⟨26, _⟩ => ⟨S400000x1, .i32⟩
  | .hbm, ⟨27, _⟩ => ⟨S400000, .i32⟩
  | .hbm, ⟨28, _⟩ => ⟨S400000x1, .i32⟩
  | .hbm, ⟨29, _⟩ => ⟨S400000, .i32⟩
  | .hbm, ⟨30, _⟩ => ⟨S400000x1, .i32⟩
  | .hbm, ⟨31, _⟩ => ⟨S400000, .i32⟩
  | .hbm, ⟨32, _⟩ => ⟨S400000x1, .i32⟩
  | .hbm, ⟨33, _⟩ => ⟨S400000x128, .f32⟩
  | .hbm, ⟨34, _⟩ => ⟨S256x1, .i32⟩
  | .hbm, ⟨35, _⟩ => ⟨S256x128, .f32⟩
  | .hbm, ⟨36, _⟩ => ⟨S256x128, .f32⟩
  | .hbm, ⟨37, _⟩ => ⟨S51x128, .f32⟩
  | .hbm, ⟨38, _⟩ => ⟨S51x256, .f32⟩
  | .hbm, ⟨39, _⟩ => ⟨S100x1x4000, .i32⟩
  | .hbm, ⟨40, _⟩ => ⟨S100x1x4000, .i32⟩
  | .hbm, ⟨41, _⟩ => ⟨S1x128, .f32⟩
  | .hbm, ⟨42, _⟩ => ⟨S1x1, .f32⟩
  | .hbm, ⟨43, _⟩ => ⟨S100x1x4000, .f32⟩
  | .hbm, ⟨44, _⟩ => ⟨S400000x128, .f32⟩
  | .hbm, ⟨45, _⟩ => ⟨S400000x1, .f32⟩
  | .hbm, ⟨46, _⟩ => ⟨S_, .f32⟩
  | .hbm, ⟨47, _⟩ => ⟨S200000x128, .f32⟩
  | .hbm, ⟨48, _⟩ => ⟨S400000x1, .i32⟩
  | .hbm, ⟨49, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S1x1x4000, .i32⟩
  | .local _ .vmem, ⟨3, _⟩ => ⟨S1x1x4000, .i32⟩
  | .local _ .vmem, ⟨4, _⟩ => ⟨S1x1x4000, .i32⟩
  | .local _ .vmem, ⟨5, _⟩ => ⟨S1x1x4000, .i32⟩
  | .local _ .vmem, ⟨6, _⟩ => ⟨S51x256, .f32⟩
  | .local _ .vmem, ⟨7, _⟩ => ⟨S256x128, .f32⟩
  | .local _ .vmem, ⟨8, _⟩ => ⟨S128x128, .f32⟩
  | .local _ .vmem, ⟨9, _⟩ => ⟨S1x128, .f32⟩
  | .local _ .vmem, ⟨10, _⟩ => ⟨S128x1, .f32⟩
  | .local _ .vmem, ⟨11, _⟩ => ⟨S1x1, .f32⟩
  | .local _ .vmem, ⟨12, _⟩ => ⟨S128x128, .f32⟩
  | .local _ .vmem, ⟨13, _⟩ => ⟨S1x1x4000, .f32⟩
  | .local _ .vmem, ⟨14, _⟩ => ⟨S1x1x4000, .f32⟩
  | .local _ .vmem, ⟨15, _⟩ => ⟨S4000x128, .f32⟩
  | .local _ .vmem, ⟨16, _⟩ => ⟨S4000x128, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_v17 : Ref sig .tc := ⟨.hbm, 33, rfl⟩
abbrev main_call1_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S51x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x4000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S200000x2_S200000x1_0_1 : S200000x2.Slices ![0, 1] S200000x1
  shapeCasts_S200000x1_S200000 : S200000x1.ShapeCasts S200000
  bcast_S_S200000 : S_.BroadcastsInDim S200000 (![] : Fin 0 → Fin S200000.rank)
  slices_S400000x6_S400000x1_0_4 : S400000x6.Slices ![0, 4] S400000x1
  shapeCasts_S400000x1_S400000 : S400000x1.ShapeCasts S400000
  slices_S400000x6_S400000x1_0_2 : S400000x6.Slices ![0, 2] S400000x1
  slices_S400000x6_S400000x1_0_5 : S400000x6.Slices ![0, 5] S400000x1
  slices_S400000x6_S400000x1_0_0 : S400000x6.Slices ![0, 0] S400000x1
  bcast_S400000_S400000x1_0 : S400000.BroadcastsInDim S400000x1 (![0] : Fin 1 → Fin S400000x1.rank)
  bcast_S256_S256x1_0 : S256.BroadcastsInDim S256x1 (![0] : Fin 1 → Fin S256x1.rank)
  concatenates_S51x128_S51x128_S51x256_d1 : Shape.Concatenates [S51x128, S51x128] S51x256 1
  shapeCasts_S400000_S100x1x4000 : S400000.ShapeCasts S100x1x4000
  shapeCasts_S128_S1x128 : S128.ShapeCasts S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x1x4000 : S1x1x4000.ShapeCasts S1x1x4000
  shapeCasts_S1x1x4000_S1x4000 : S1x1x4000.ShapeCasts S1x4000
  inb_S51x256_S51x256_0_0 : ∀ a, (![0, 0] : Fin 2 → Nat) a + S51x256.size a ≤ S51x256.size a
  h_S51x256 : 0 < S51x256.numel
  shapeCasts_S51x256_S51x256 : S51x256.ShapeCasts S51x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  iota_S51x4000_d0_w32 : S51x4000.Iotas .tc 32 [0]
  broadcasts_S1x4000_S51x4000 : S1x4000.Broadcasts S51x4000
  natLt_1_32 : 1 < 32
  bitsLt_bf16_f32 : FTy.bits .bf16 < FTy.bits .f32
  iota_S256x4000_d0_w32 : S256x4000.Iotas .tc 32 [0]
  broadcasts_S1x4000_S256x4000 : S1x4000.Broadcasts S256x4000
  slices_S4000x256_o0_0_S4000x128 : S4000x256.Slices ![0, 0] S4000x128
  slices_S4000x256_o0_128_S4000x128 : S4000x256.Slices ![0, 128] S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x128 : S4000x1.Broadcasts S4000x128
  transposes_S4000x1_p1_0_S1x4000 : S4000x1.Transposes [1, 0] S1x4000
  shapeCasts_S1x4000_S1x1x4000 : S1x4000.ShapeCasts S1x1x4000
  shapeCasts_S100x1x4000_S400000x1 : S100x1x4000.ShapeCasts S400000x1
  bcast_S_S200000x128 : S_.BroadcastsInDim S200000x128 (![] : Fin 0 → Fin S200000x128.rank)
  gather_S200000x128_S400000x1_S400000x128_1_0_n_n_0_1_1128_wf : GatherDims.WF S200000x128 S400000x1 S400000x128 [1] [0] [] [0] [] 1 ![1, 128]
  gather_S51x128_S256x1_S256x128_1_0_n_n_0_1_1128_wf : GatherDims.WF S51x128 S256x1 S256x128 [1] [0] [] [0] [] 1 ![1, 128]
  dot_S256x128_S128x128_S256x128_1_0_0_1_n_n_wf : DotDims.WF S256x128 S128x128 S256x128 [1] [0] [0] [1] [] []
  dot_S51x128_S128x128_S51x128_1_0_0_1_n_n_wf : DotDims.WF S51x128 S128x128 S51x128 [1] [0] [0] [1] [] []
  dot_S51x4000_S51x256_S4000x256_0_0_1_1_n_n_wf : DotDims.WF S51x4000 S51x256 S4000x256 [0] [0] [1] [1] [] []
  dot_S256x4000_S256x128_S4000x128_0_0_1_1_n_n_wf : DotDims.WF S256x4000 S256x128 S4000x128 [0] [0] [1] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S200000x128_S400000x1_S400000x128_1_0_0_1_wf : ScatterDims.WF S200000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4000.size a ≤ S100x1x4000.size a
  hwx0_1 : ∀ i : grid0.Coords, EltTy.bits .i32 = 32 ∨ (Rect.block (s := S100x1x4000) S1x1x4000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4000.size a ≤ S100x1x4000.size a
  hwx0_2 : ∀ i : grid0.Coords, EltTy.bits .i32 = 32 ∨ (Rect.block (s := S100x1x4000) S1x1x4000.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S51x256.size a ≤ S51x256.size a
  hwx0_3 : ∀ i : grid0.Coords, EltTy.bits .f32 = 32 ∨ (Rect.block (s := S51x256) S51x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x4000.size a ≤ S100x1x4000.size a
  hwx0_10 : ∀ i : grid0.Coords, EltTy.bits .f32 = 32 ∨ (Rect.block (s := S100x1x4000) S1x1x4000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S400000x128.size a
  hwx0_11 : ∀ i : grid0.Coords, EltTy.bits .f32 = 32 ∨ (Rect.block (s := S400000x128) S4000x128.size (cc0_transform_11 i) (hinb0_11 i)).WholeWords (EltTy.packing .f32)

variable [Facts₀]

def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def gather_S51x128_S256x1_S256x128_1_0_n_n_0_1_1128 : GatherDims S51x128 S256x1 S256x128 where
  offsetDims := [1]
  collapsedSliceDims := [0]
  operandBatchingDims := []
  startIndicesBatchingDims := []
  startIndexMap := [0]
  indexVectorDim := 1
  sliceSizes := ![1, 128]
  wf := gather_S51x128_S256x1_S256x128_1_0_n_n_0_1_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S51x128_S128x128_S51x128_1_0_0_1_n_n : DotDims S51x128 S128x128 S51x128 where
  lhsContracting := [1]
  rhsContracting := [0]
  lhsNonContracting := [0]
  rhsNonContracting := [1]
  lhsBatch := []
  rhsBatch := []
  wf := dot_S51x128_S128x128_S51x128_1_0_0_1_n_n_wf
def dot_S51x4000_S51x256_S4000x256_0_0_1_1_n_n : DotDims S51x4000 S51x256 S4000x256 where
  lhsContracting := [0]
  rhsContracting := [0]
  lhsNonContracting := [1]
  rhsNonContracting := [1]
  lhsBatch := []
  rhsBatch := []
  wf := dot_S51x4000_S51x256_S4000x256_0_0_1_1_n_n_wf
def dot_S256x4000_S256x128_S4000x128_0_0_1_1_n_n : DotDims S256x4000 S256x128 S4000x128 where
  lhsContracting := [0]
  rhsContracting := [0]
  lhsNonContracting := [1]
  rhsNonContracting := [1]
  lhsBatch := []
  rhsBatch := []
  wf := dot_S256x4000_S256x128_S4000x128_0_0_1_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf

abbrev win0_0 : Pipeline.Window sig grid0 :=
  Pipeline.Window.ofSpec (Memref.whole main_v17) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1x4000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x4000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S51x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26_0) S1x1x4000.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_1) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S256 : Shape := ⟨1, ![256]⟩
abbrev S200000x128 : Shape := ⟨2, ![200000, 128]⟩
abbrev S400000x6 : Shape := ⟨2, ![400000, 6]⟩
abbrev S200000x2 : Shape := ⟨2, ![200000, 2]⟩
abbrev S51x128 : Shape := ⟨2, ![51, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S200000x1 : Shape := ⟨2, ![200000, 1]⟩
abbrev S200000 : Shape := ⟨1, ![200000]⟩
abbrev S_ : Shape := ⟨0, ![]⟩
abbrev S400000x1 : Shape := ⟨2, ![400000, 1]⟩
abbrev S400000 : Shape := ⟨1, ![400000]⟩
abbrev S400000x128 : Shape := ⟨2, ![400000, 128]⟩
abbrev S256x1 : Shape := ⟨2, ![256, 1]⟩
abbrev S256x128 : Shape := ⟨2, ![256, 128]⟩
abbrev S1x128 : Shape := ⟨2, ![1, 128]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S256, .i32⟩
  | .hbm, ⟨1, _⟩ => ⟨S256, .i32⟩
  | .hbm, ⟨2, _⟩ => ⟨S200000x128, .f32⟩
  | .hbm, ⟨3, _⟩ => ⟨S400000x6, .i32⟩
  | .hbm, ⟨4, _⟩ => ⟨S200000x2, .i32⟩
  | .hbm, ⟨5, _⟩ => ⟨S51x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S200000x1, .i32⟩
  | .hbm, ⟨19, _⟩ => ⟨S200000, .i32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S200000, .i1⟩
  | .hbm, ⟨24, _⟩ => ⟨S400000x1, .i32⟩
  | .hbm, ⟨25, _⟩ => ⟨S400000, .i32⟩
  | .hbm, ⟨26, _⟩ => ⟨S400000x1, .i32⟩
  | .hbm, ⟨27, _⟩ => ⟨S400000, .i32⟩
  | .hbm, ⟨28, _⟩ => ⟨S400000x1, .i32⟩
  | .hbm, ⟨29, _⟩ => ⟨S400000, .i32⟩
  | .hbm, ⟨30, _⟩ => ⟨S400000x1, .i32⟩
  | .hbm, ⟨31, _⟩ => ⟨S400000, .i32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x128, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x128, .f32⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S256, .i32⟩
  | .hbm, ⟨57, _⟩ => ⟨S256x1, .i32⟩
  | .hbm, ⟨58, _⟩ => ⟨S256x128, .f32⟩
  | .hbm, ⟨59, _⟩ => ⟨S_, .i32⟩
  | .hbm, ⟨60, _⟩ => ⟨S400000, .i32⟩
  | .hbm, ⟨61, _⟩ => ⟨S400000, .i1⟩
  | .hbm, ⟨62, _⟩ => ⟨S_, .i32⟩
  | .hbm, ⟨63, _⟩ => ⟨S400000, .i32⟩
  | .hbm, ⟨64, _⟩ => ⟨S400000, .i32⟩
  | .hbm, ⟨65, _⟩ => ⟨S400000, .i32⟩
  | .hbm, ⟨66, _⟩ => ⟨S400000x1, .i32⟩
  | .hbm, ⟨67, _⟩ => ⟨S400000x128, .f32⟩
  | .hbm, ⟨68, _⟩ => ⟨S400000x128, .f32⟩
  | .hbm, ⟨69, _⟩ => ⟨S400000x128, .f32⟩
  | .hbm, ⟨70, _⟩ => ⟨S400000x128, .f32⟩
  | .hbm, ⟨71, _⟩ => ⟨S400000x128, .f32⟩
  | .hbm, ⟨72, _⟩ => ⟨S400000x128, .f32⟩
  | .hbm, ⟨73, _⟩ => ⟨S1x128, .f32⟩
  | .hbm, ⟨74, _⟩ => ⟨S400000x128, .f32⟩
  | .hbm, ⟨75, _⟩ => ⟨S400000x128, .f32⟩
  | .hbm, ⟨76, _⟩ => ⟨S_, .f32⟩
  | .hbm, ⟨77, _⟩ => ⟨S400000x128, .f32⟩
  | .hbm, ⟨78, _⟩ => ⟨S400000x128, .f32⟩
  | .hbm, ⟨79, _⟩ => ⟨S400000x1, .f32⟩
  | .hbm, ⟨80, _⟩ => ⟨S1x1, .f32⟩
  | .hbm, ⟨81, _⟩ => ⟨S400000x1, .f32⟩
  | .hbm, ⟨82, _⟩ => ⟨S400000x1, .f32⟩
  | .hbm, ⟨83, _⟩ => ⟨S400000x1, .f32⟩
  | .hbm, ⟨84, _⟩ => ⟨S400000x1, .f32⟩
  | .hbm, ⟨85, _⟩ => ⟨S_, .f32⟩
  | .hbm, ⟨86, _⟩ => ⟨S400000x1, .f32⟩
  | .hbm, ⟨87, _⟩ => ⟨S400000x1, .f32⟩
  | .hbm, ⟨88, _⟩ => ⟨S_, .f32⟩
  | .hbm, ⟨89, _⟩ => ⟨S400000x1, .f32⟩
  | .hbm, ⟨90, _⟩ => ⟨S400000x1, .f32⟩
  | .hbm, ⟨91, _⟩ => ⟨S400000x128, .f32⟩
  | .hbm, ⟨92, _⟩ => ⟨S400000x128, .f32⟩
  | .hbm, ⟨93, _⟩ => ⟨S400000x128, .f32⟩
  | .hbm, ⟨94, _⟩ => ⟨S_, .f32⟩
  | .hbm, ⟨95, _⟩ => ⟨S200000x128, .f32⟩
  | .hbm, ⟨96, _⟩ => ⟨S400000x1, .i32⟩
  | .hbm, ⟨97, _⟩ => ⟨S200000x128, .f32⟩
  | .hbm, ⟨98, _⟩ => ⟨S200000x128, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call0_cst : Ref sig .tc := ⟨.hbm, 76, rfl⟩
abbrev main_call0_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst : Ref sig .tc := ⟨.hbm, 85, rfl⟩
abbrev main_v60 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S200000x2_S200000x1_0_1 : S200000x2.Slices ![0, 1] S200000x1
  shapeCasts_S200000x1_S200000 : S200000x1.ShapeCasts S200000
  bcast_S_S200000 : S_.BroadcastsInDim S200000 (![] : Fin 0 → Fin S200000.rank)
  slices_S400000x6_S400000x1_0_4 : S400000x6.Slices ![0, 4] S400000x1
  shapeCasts_S400000x1_S400000 : S400000x1.ShapeCasts S400000
  slices_S400000x6_S400000x1_0_2 : S400000x6.Slices ![0, 2] S400000x1
  slices_S400000x6_S400000x1_0_5 : S400000x6.Slices ![0, 5] S400000x1
  slices_S400000x6_S400000x1_0_0 : S400000x6.Slices ![0, 0] S400000x1
  bcast_S_S400000 : S_.BroadcastsInDim S400000 (![] : Fin 0 → Fin S400000.rank)
  bcast_S400000_S400000x1_0 : S400000.BroadcastsInDim S400000x1 (![0] : Fin 1 → Fin S400000x1.rank)
  bcast_S_S256 : S_.BroadcastsInDim S256 (![] : Fin 0 → Fin S256.rank)
  bcast_S256_S256x1_0 : S256.BroadcastsInDim S256x1 (![0] : Fin 1 → Fin S256x1.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S_S200000x128 : S_.BroadcastsInDim S200000x128 (![] : Fin 0 → Fin S200000x128.rank)
  gather_S200000x128_S400000x1_S400000x128_1_0_n_n_0_1_1128_wf : GatherDims.WF S200000x128 S400000x1 S400000x128 [1] [0] [] [0] [] 1 ![1, 128]
  gather_S51x128_S400000x1_S400000x128_1_0_n_n_0_1_1128_wf : GatherDims.WF S51x128 S400000x1 S400000x128 [1] [0] [] [0] [] 1 ![1, 128]
  gather_S51x128_S256x1_S256x128_1_0_n_n_0_1_1128_wf : GatherDims.WF S51x128 S256x1 S256x128 [1] [0] [] [0] [] 1 ![1, 128]
  gather_S256x128_S400000x1_S400000x128_1_0_n_n_0_1_1128_wf : GatherDims.WF S256x128 S400000x1 S400000x128 [1] [0] [] [0] [] 1 ![1, 128]
  dot_S400000x128_S128x128_S400000x128_1_0_0_1_n_n_wf : DotDims.WF S400000x128 S128x128 S400000x128 [1] [0] [0] [1] [] []
  dot_S400000x128_S128x1_S400000x1_1_0_0_1_n_n_wf : DotDims.WF S400000x128 S128x1 S400000x1 [1] [0] [0] [1] [] []
  scatter_S200000x128_S400000x1_S400000x128_1_0_0_1_wf : ScatterDims.WF S200000x128 S400000x1 S400000x128 [1] [0] [0] 1
  dot_S200000x128_S128x128_S200000x128_1_0_0_1_n_n_wf : DotDims.WF S200000x128 S128x128 S200000x128 [1] [0] [0] [1] [] []

variable [Facts₀]

def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def gather_S51x128_S400000x1_S400000x128_1_0_n_n_0_1_1128 : GatherDims S51x128 S400000x1 S400000x128 where
  offsetDims := [1]
  collapsedSliceDims := [0]
  operandBatchingDims := []
  startIndicesBatchingDims := []
  startIndexMap := [0]
  indexVectorDim := 1
  sliceSizes := ![1, 128]
  wf := gather_S51x128_S400000x1_S400000x128_1_0_n_n_0_1_1128_wf
def gather_S51x128_S256x1_S256x128_1_0_n_n_0_1_1128 : GatherDims S51x128 S256x1 S256x128 where
  offsetDims := [1]
  collapsedSliceDims := [0]
  operandBatchingDims := []
  startIndicesBatchingDims := []
  startIndexMap := [0]
  indexVectorDim := 1
  sliceSizes := ![1, 128]
  wf := gather_S51x128_S256x1_S256x128_1_0_n_n_0_1_1128_wf
def gather_S256x128_S400000x1_S400000x128_1_0_n_n_0_1_1128 : GatherDims S256x128 S400000x1 S400000x128 where
  offsetDims := [1]
  collapsedSliceDims := [0]
  operandBatchingDims := []
  startIndicesBatchingDims := []
  startIndexMap := [0]
  indexVectorDim := 1
  sliceSizes := ![1, 128]
  wf := gather_S256x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.LibRowGather.lean ====
/-
  A row gather read at an index. `table[idx]` over a rank-2 table [N, D] at a vector of n row numbers prints as a
  `stablehlo.gather` whose start indices are the [n, 1] column of row numbers, whose operand axis 0 is collapsed and
  start-indexed, whose operand axis 1 is the one offset axis, and whose slices are whole rows [1, D]. Result element (p, q)
  is the table at (row, q), the row being position p's start index read as a signed integer and clamped into [0, N − 1].
-/
import Idealize.ShloMosaic.PureOps.ShapeOps
import Idealize.ShloMosaic.Lib.ValueIdx

namespace Idealize.ShloMosaic.RowGather

open Idealize.ShloMosaic Idealize.ShloMosaic.ValueIdx

/-- A rank-2 index read on an axis whose number is 0 is its first coordinate. -/
theorem ix2_val_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_one {n0 n1 : Nat} (a : Fin n0) (b : Fin n1) (i : Fin 2) (hi : i.val = 1) : (ix2 a b i).val = b.val := by
  match i, hi with
  | ⟨1, _⟩, _ => rfl

/-- A start index read as a signed integer and clamped into a table of `N` rows: the row a gather reads. -/
def clampRow (N : Nat) (hN : 0 < N) {w : Nat} (i : BitVec w) : Fin N := ⟨min i.toInt.toNat (N - 1), by omega⟩

/-- THE ROW GATHER AT (p, q): the table at (the clamped start row of position p, q). The five hypotheses are the printed
    dimension numbers, each by `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  -- the result's batch axes are all axis 0, its offset axes all axis 1
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.Spec.lean ====
/-
  The mathematics both programs compute, as plain functions of the argument arrays over the extended reals.

  Per edge e (400000 of them) the edge list names a source row, a relation and a query:
    hs e  = hidden[sub e],   hr e = rela_embed[rel e],   hq e = rela_embed[q_rel[qidx e]]
  (each row number read as a signed word and clamped into its table), and
    preAct e k = ((Σ_d hs e d · Ws d k + Σ_d hr e d · Wr d k) + Σ_d hq e d · Wq d k) + b k
    alpha e    = logistic (Σ_k max (preAct e k) 0 · wa k + wb)
    msg e k    = alpha e · (hs e k + hr e k).
  The new hidden state of node n sums the messages of the edges whose target is n and applies Wh; the two programs
  do these two linear steps in opposite orders (hiddenK: Wh per edge, then the sum over edges; hiddenR: the sum
  over edges, then Wh).
-/
import Idealize.ShloMosaic.PureOps.Ideal
import Idealize.ShloMosaic.Lib.ValueIdx
import proofs.«417665_j34840774705589_3_alg».proof.Proof.LibRowGather

noncomputable section

namespace Cert.Spec

open Idealize.ShloMosaic Idealize.ShloMosaic.ValueIdx Idealize.ShloMosaic.RowGather

/-- The argument arrays the results depend on (the node table enters only the sampled-nodes mask, which both
    programs compute by the same operations). -/
structure Args where
  qrel : IVec ⟨1, ![256]⟩ 32
  hidden : (⟨2, ![200000, 128]⟩ : Shape).Idx → EReal
  edges : IVec ⟨2, ![400000, 6]⟩ 32
  re : (⟨2, ![51, 128]⟩ : Shape).Idx → EReal
  Ws : (⟨2, ![128, 128]⟩ : Shape).Idx → EReal
  Wr : (⟨2, ![128, 128]⟩ : Shape).Idx → EReal
  Wq : (⟨2, ![128, 128]⟩ : Shape).Idx → EReal
  b : (⟨1, ![128]⟩ : Shape).Idx → EReal
  wa : (⟨2, ![128, 1]⟩ : Shape).Idx → EReal
  wb : (⟨1, ![1]⟩ : Shape).Idx → EReal
  Wh : (⟨2, ![128, 128]⟩ : Shape).Idx → EReal

variable (A : Args)

/-- Column c of the edge list at edge e. -/
def Args.col (c : Fin 6) (e : Fin 400000) : BitVec 32 := A.edges (ix2 e c)

/-- The source row of edge e in the hidden table. -/
def Args.subRow (e : Fin 400000) : Fin 200000 := clampRow 200000 (by decide) (A.col 4 e)
/-- The relation of edge e as a row of the relation table. -/
def Args.relRow (e : Fin 400000) : Fin 51 := clampRow 51 (by decide) (A.col 2 e)
/-- The query of edge e. -/
def Args.qRow (e : Fin 400000) : Fin 256 := clampRow 256 (by decide) (A.col 0 e)
/-- The relation of query q as a row of the relation table. -/
def Args.qrelRow (q : Fin 256) : Fin 51 := clampRow 51 (by decide) (A.qrel (ix1 q))

def Args.hs (e : Fin 400000) (d : Fin 128) : EReal := A.hidden (ix2 (A.subRow e) d)
def Args.hr (e : Fin 400000) (d : Fin 128) : EReal := A.re (ix2 (A.relRow e) d)
/-- The relation embedding of a query's relation. -/
def Args.hqTab (q : Fin 256) (d : Fin 128) : EReal := A.re (ix2 (A.qrelRow q) d)
def Args.hq (e : Fin 400000) (d : Fin 128) : EReal := A.hqTab (A.qRow e) d

def Args.preAct (e : Fin 400000) (k : Fin 128) : EReal :=
  (((∑ d : Fin 128, A.hs e d * A.Ws (ix2 d k)) + (∑ d : Fin 128, A.hr e d * A.Wr (ix2 d k)))
    + (∑ d : Fin 128, A.hq e d * A.Wq (ix2 d k))) + A.b (ix1 k)

def Args.logit (e : Fin 400000) : EReal :=
  (∑ k : Fin 128, max (A.preAct e k) 0 * A.wa (ix2 k (0 : Fin 1))) + A.wb (ix1 (0 : Fin 1))

def Args.alpha (e : Fin 400000) : EReal := Ideal.logistic (A.logit e)

def Args.msg (e : Fin 400000) (k : Fin 128) : EReal := A.alpha e * (A.hs e k + A.hr e k)

/-- The message of edge e after Wh. -/
def Args.msgWh (e : Fin 400000) (j : Fin 128) : EReal := ∑ k : Fin 128, A.msg e k * A.Wh (ix2 k j)

/-- The edges whose target node is n (the target read as a signed word; a target outside the table is in no set). -/
def Args.objSet (n : Fin 200000) : Finset (Fin 400000) :=
  Finset.univ.filter fun e => (A.col 5 e).toInt = (n.val : ℤ)

/-- Wh per edge, then the sum over the edges of a node. -/
def Args.hiddenK (n : Fin 200000) (j : Fin 128) : EReal := 0 + ∑ e ∈ A.objSet n, A.msgWh e j

/-- The sum over the edges of a node, then Wh. -/
def Args.hiddenR (n : Fin 200000) (j : Fin 128) : EReal :=
  ∑ k : Fin 128, (0 + ∑ e ∈ A.objSet n, A.msg e k) * A.Wh (ix2 k j)

/-- A function of two coordinates as an array over a rank-2 shape. -/
def arr2 {α : Type} {a b : Nat} (f : Fin a → Fin b → α) : (⟨2, ![a, b]⟩ : Shape).Idx → α :=
  fun i => f ⟨(i 0).val, idx2_lt0 i⟩ ⟨(i 1).val, idx2_lt1 i⟩

theorem arr2_ix2 {α : Type} {a b : Nat} (f : Fin a → Fin b → α) (p : Fin a) (q : Fin b) : arr2 f (ix2 p q) = f p q := rfl

/-- An array over a rank-2 shape is `arr2 f` once it is `f` at every pair of coordinates. -/
theorem eq_arr2 {α : Type} {a b : Nat} (x : (⟨2, ![a, b]⟩ : Shape).Idx → α) (f : Fin a → Fin b → α)
    (h : ∀ p q, x (ix2 p q) = f p q) : x = arr2 f := by
  funext i
  rw [eq_ix2 i]
  exact h _ _

/-- The attention weights as the [400000, 1] array both programs return. -/
def Args.alphaArr : (⟨2, ![400000, 1]⟩ : Shape).Idx → EReal := arr2 fun e (_ : Fin 1) => A.alpha e

/-- The index inputs in the range of the table each indexes, as far as the two programs' agreement needs it. -/
structure IdxOK : Prop where
  sub_lo : ∀ e, 0 ≤ (A.col 4 e).toInt
  qrel_lo : ∀ q : Fin 256, 0 ≤ (A.qrel (ix1 q)).toInt
  rel_lo : ∀ e, 0 ≤ (A.col 2 e).toInt
  rel_hi : ∀ e, (A.col 2 e).toInt < 51
  q_lo : ∀ e, 0 ≤ (A.col 0 e).toInt
  q_hi : ∀ e, (A.col 0 e).toInt < 256

/-- The float tables whose entries the exchange of the two linear steps needs to be real numbers. -/
structure FinOK : Prop where
  hidden : ∀ i, ∃ r : ℝ, A.hidden i = (r : EReal)
  re : ∀ i, ∃ r : ℝ, A.re i = (r : EReal)
  Wh : ∀ i, ∃ r : ℝ, A.Wh i = (r : EReal)

end Cert.Spec

end
-- ==== Proof.Linear.lean ====
/-
  The exchange of the two linear steps on the extended reals: the attention weight is a real number, so every message is
  real once the tables are, and over the reals the sum over a node's edges commutes with the product by Wh.
-/
import proofs.«417665_j34840774705589_3_alg».proof.Proof.Spec
import Mathlib.Data.EReal.Basic
import Mathlib.Algebra.BigOperators.Ring.Finset

noncomputable section

namespace Cert.Spec

open Idealize.ShloMosaic Idealize.ShloMosaic.ValueIdx

/-- The logistic function takes real values on the whole extended line: 0 at ⊥, 1 at ⊤, 1 / (1 + e⁻ʳ) at a real r. -/
theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The inclusion of the reals in the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every message entry is a real number once the hidden and relation tables are: a real weight times a real sum. -/
theorem msg_real (A : Args) (hfin : FinOK A) (e : Fin 400000) (k : Fin 128) : ∃ r : ℝ, A.msg e k = (r : EReal) := by
  obtain ⟨a, ha⟩ := logistic_real (A.logit e)
  obtain ⟨h, hh⟩ := hfin.hidden (ix2 (A.subRow e) k)
  obtain ⟨r, hr⟩ := hfin.re (ix2 (A.relRow e) k)
  refine ⟨a * (h + r), ?_⟩
  show Ideal.logistic (A.logit e) * (A.hidden (ix2 (A.subRow e) k) + A.re (ix2 (A.relRow e) k)) = _
  rw [ha, hh, hr, EReal.coe_mul, EReal.coe_add]

/-- Wh per edge then the sum over a node's edges is the sum over the edges then Wh, when the tables are real: both are
    the inclusion of a real double sum, and over the reals Σ_e Σ_k m e k · W k j = Σ_k (Σ_e m e k) · W k j. -/
theorem hiddenK_eq_hiddenR (A : Args) (hfin : FinOK A) (n : Fin 200000) (j : Fin 128) : A.hiddenK n j = A.hiddenR n j := by
  choose m hm using msg_real A hfin
  choose W hW using hfin.Wh
  have hK : A.hiddenK n j = ((∑ e ∈ A.objSet n, ∑ k : Fin 128, m e k * W (ix2 k j) : ℝ) : EReal) := by
    unfold Args.hiddenK Args.msgWh
    rw [zero_add, coe_finset_sum]
    refine Finset.sum_congr rfl fun e _ => ?_
    rw [coe_finset_sum]
    refine Finset.sum_congr rfl fun k _ => ?_
    rw [hm, hW, EReal.coe_mul]
  have hR : A.hiddenR n j = ((∑ k : Fin 128, (∑ e ∈ A.objSet n, m e k) * W (ix2 k j) : ℝ) : EReal) := by
    unfold Args.hiddenR
    rw [coe_finset_sum]
    refine Finset.sum_congr rfl fun k _ => ?_
    have hs : ∑ e ∈ A.objSet n, A.msg e k = ∑ e ∈ A.objSet n, ((m e k : ℝ) : EReal) :=
      Finset.sum_congr rfl fun e _ => hm e k
    rw [zero_add, EReal.coe_mul, coe_finset_sum, hW, hs]
  have hreal : (∑ e ∈ A.objSet n, ∑ k : Fin 128, m e k * W (ix2 k j))
      = ∑ k : Fin 128, (∑ e ∈ A.objSet n, m e k) * W (ix2 k j) := by
    rw [Finset.sum_comm]
    refine Finset.sum_congr rfl fun k _ => ?_
    rw [Finset.sum_mul]
  rw [hK, hR, hreal]

end Cert.Spec

end
-- ==== Proof.PreFacts.lean ====
/-
  The printed precondition, decoded: when the conjunction of its thirteen tests is true, the index columns of the
  edge list and the query relations lie in the ranges of the tables they index, and the float tables hold real numbers.

  Each test is an "all" over an array of one-bit words; the conjunction being 1 makes every test 1, and a test
  being 1 makes its word 1 at every index. A float test's word at an index says |x| < +∞, so x is a real number;
  an integer test's word says 0 ≤ w, or 0 ≤ w < n, of the word w read signed.
-/
import Idealize.ShloMosaic.PureOps.Ideal
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate
import proofs.«417665_j34840774705589_3_alg».proof.Pre_finite_inputs
import proofs.«417665_j34840774705589_3_alg».proof.Proof.Gen.Pre_finite_inputs
import proofs.«417665_j34840774705589_3_alg».proof.Proof.Spec

noncomputable section

namespace Cert.PreFacts

open Idealize.ShloMosaic Idealize.ShloMosaic.ValueIdx Cert.Pre_finite_inputs

/-- The scalar shape has one index. -/
instance subsingleton_scalar_idx : Subsingleton S_.Idx := ⟨fun a b => funext fun d => d.elim0⟩

/-- The pattern 0x7F800000 denotes +∞. -/
theorem inf_bits : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One test "all |x| < +∞" that came out true: every entry of x is a real number. -/
theorem real_of_all {s : Shape} {axes : List (Fin s.rank)} (x : FVec Ideal s .f32) (hb : S_.BroadcastsInDim s (![] : Fin 0 → Fin s.rank))
    (hr : s.ReducesTo axes S_) (hu : 0 < S_.numel) (init : IVec S_ 1)
    (e : Host.reduce IntOp.andi (cmpf .olt (Host.absf x) (broadcastInDim s ![] hb (constant S_ .f32 0x7F800000#32))) init hr hu ix0 = 1#1)
    (i : s.Idx) : ∃ r : ℝ, x i = (r : EReal) := by
  have h1 := Host.reduce_andi_all _ init hr hu ix0 e i
  rw [cmpf_apply, StableHlo.Predicate.bcast_scalar hb hu, constant_apply, inf_bits] at h1
  have h2 : Ideal.cmp .olt (max (x i : EReal) (-(x i : EReal))) ⊤ = 1#1 := h1
  unfold Ideal.cmp at h2
  rw [StableHlo.Predicate.ofBool_eq_one_iff] at h2
  exact real_of_abs_lt_top (x i) (of_decide_eq_true h2)

/-- Column c of the edge list, cut out as a [400000, 1] slice and reshaped to a vector, read at edge e. -/
theorem col_read (x3 : IVec S400000x6 32) (o : Nat) (hs : S400000x6.Slices ![0, o] S400000x1) (hc : S400000x1.ShapeCasts S400000)
    (c : Fin 6) (hoc : c.val = o) (e : Fin 400000) :
    shapeCast S400000 (extractStridedSlice S400000x1 ![0, o] x3 hs) hc (ix1 e) = x3 (ix2 e c) := by
  rw [shapeCast_apply _ hc (ix1 e) (ix2 e (0 : Fin 1)) (by rw [Shape.rowMajor_val_one, Shape.rowMajor_val_two]; simp)]
  exact slice2_axis1_apply o x3 hs e 0 c (by simp [hoc])

/-- One test "all of column c ≥ 0" that came out true: the column, read signed, is nonnegative at every edge. -/
theorem col_nonneg_of_all {axes : List (Fin S400000.rank)} (x3 : IVec S400000x6 32) (o : Nat) (hs : S400000x6.Slices ![0, o] S400000x1)
    (hc : S400000x1.ShapeCasts S400000) (hb : S_.BroadcastsInDim S400000 (![] : Fin 0 → Fin S400000.rank))
    (hr : S400000.ReducesTo axes S_) (hu : 0 < S_.numel) (init : IVec S_ 1)
    (e : Host.reduce IntOp.andi (cmpi .sge (shapeCast S400000 (extractStridedSlice S400000x1 ![0, o] x3 hs) hc)
      (broadcastInDim S400000 ![] hb (constantI S_ 32 0#32))) init hr hu ix0 = 1#1)
    (c : Fin 6) (hoc : c.val = o) (ed : Fin 400000) : 0 ≤ (x3 (ix2 ed c)).toInt := by
  have h1 := Host.reduce_andi_all _ init hr hu ix0 e (ix1 ed)
  have h2 : IntOp.cmpi .sge (shapeCast S400000 (extractStridedSlice S400000x1 ![0, o] x3 hs) hc (ix1 ed))
      (broadcastInDim S400000 ![] hb (constantI S_ 32 0#32) (ix1 ed)) = 1#1 := h1
  rw [col_read x3 o hs hc c hoc ed, StableHlo.Predicate.bcast_scalar hb hu, constantI_apply, IntOp.cmpi_sge] at h2
  simpa using h2

/-- One test "all of 0 ≤ column c < n" that came out true: the column, read signed, lies in [0, n) at every edge. -/
theorem col_range_of_all {axes : List (Fin S400000.rank)} (x3 : IVec S400000x6 32) (o : Nat) (hs : S400000x6.Slices ![0, o] S400000x1)
    (hc : S400000x1.ShapeCasts S400000) (hb : S_.BroadcastsInDim S400000 (![] : Fin 0 → Fin S400000.rank))
    (hr : S400000.ReducesTo axes S_) (hu : 0 < S_.numel) (init : IVec S_ 1) (n : Nat) (hn : n < 2 ^ 31)
    (e : Host.reduce IntOp.andi
      (andi (cmpi .sge (shapeCast S400000 (extractStridedSlice S400000x1 ![0, o] x3 hs) hc) (broadcastInDim S400000 ![] hb (constantI S_ 32 0#32)))
        (cmpi .slt (shapeCast S400000 (extractStridedSlice S400000x1 ![0, o] x3 hs) hc) (broadcastInDim S400000 ![] hb (constantI S_ 32 (BitVec.ofNat 32 n)))))
      init hr hu ix0 = 1#1)
    (c : Fin 6) (hoc : c.val = o) (ed : Fin 400000) : 0 ≤ (x3 (ix2 ed c)).toInt ∧ (x3 (ix2 ed c)).toInt < (n : ℤ) := by
  have h1 := Host.reduce_andi_all _ init hr hu ix0 e (ix1 ed)
  have h2 : IntOp.andi
      (IntOp.cmpi .sge (shapeCast S400000 (extractStridedSlice S400000x1 ![0, o] x3 hs) hc (ix1 ed))
        (broadcastInDim S400000 ![] hb (constantI S_ 32 0#32) (ix1 ed)))
      (IntOp.cmpi .slt (shapeCast S400000 (extractStridedSlice S400000x1 ![0, o] x3 hs) hc (ix1 ed))
        (broadcastInDim S400000 ![] hb (constantI S_ 32 (BitVec.ofNat 32 n)) (ix1 ed))) = 1#1 := h1
  rw [IntOp.andi_eq_one, col_read x3 o hs hc c hoc ed, StableHlo.Predicate.bcast_scalar hb hu, StableHlo.Predicate.bcast_scalar hb hu,
    constantI_apply, constantI_apply, IntOp.cmpi_sge, IntOp.cmpi_slt, StableHlo.Predicate.toInt_ofNat_small n hn] at h2
  exact ⟨by simpa using h2.1, h2.2⟩

/-- The test "all q_rel ≥ 0" that came out true: every query relation, read signed, is nonnegative. -/
theorem qrel_nonneg_of_all {axes : List (Fin S256.rank)} (x1 : IVec S256 32) (hb : S_.BroadcastsInDim S256 (![] : Fin 0 → Fin S256.rank))
    (hr : S256.ReducesTo axes S_) (hu : 0 < S_.numel) (init : IVec S_ 1)
    (e : Host.reduce IntOp.andi (cmpi .sge x1 (broadcastInDim S256 ![] hb (constantI S_ 32 0#32))) init hr hu ix0 = 1#1)
    (q : Fin 256) : 0 ≤ (x1 (ix1 q)).toInt := by
  have h1 := Host.reduce_andi_all _ init hr hu ix0 e (ix1 q)
  have h2 : IntOp.cmpi .sge (x1 (ix1 q)) (broadcastInDim S256 ![] hb (constantI S_ 32 0#32) (ix1 q)) = 1#1 := h1
  rw [StableHlo.Predicate.bcast_scalar hb hu, constantI_apply, IntOp.cmpi_sge] at h2
  simpa using h2

theorem of_pre (x0 x1 : IVec S256 32) (x2 : FVec Ideal S200000x128 .f32) (x3 : IVec S400000x6 32) (x4 : IVec S200000x2 32) (x5 : FVec Ideal S51x128 .f32)
    (x6 x7 x8 : FVec Ideal S128x128 .f32) (x9 : FVec Ideal S128 .f32) (x10 : FVec Ideal S128x1 .f32) (x11 : FVec Ideal S1 .f32) (x12 : FVec Ideal S128x128 .f32)
    (h : fn (F := Ideal) x0 x1 x2 x3 x4 x5 x6 x7 x8 x9 x10 x11 x12 = (fun _ => 1#1)) :
    Cert.Spec.IdxOK ⟨x1, x2, x3, x5, x6, x7, x8, x9, x10, x11, x12⟩ ∧ Cert.Spec.FinOK ⟨x1, x2, x3, x5, x6, x7, x8, x9, x10, x11, x12⟩ := by
  have h0 := congrFun h ix0
  dsimp only [fn, fn_part1, fn_part2, fn_part3, fn_part4, andi] at h0
  simp only [IntOp.andi_eq_one] at h0
  obtain ⟨⟨⟨⟨⟨⟨⟨⟨⟨⟨⟨⟨h1, h2⟩, _⟩, _⟩, _⟩, _⟩, _⟩, _⟩, h9⟩, h10⟩, h11⟩, h12⟩, h13⟩ := h0
  have r12 := col_range_of_all x3 2 _ _ _ _ _ _ 51 (by norm_num) h12 (2 : Fin 6) rfl
  have r13 := col_range_of_all x3 0 _ _ _ _ _ _ 256 (by norm_num) h13 (0 : Fin 6) rfl
  refine ⟨⟨?_, ?_, ?_, ?_, ?_, ?_⟩, ⟨?_, ?_, ?_⟩⟩
  · exact fun e => col_nonneg_of_all x3 4 _ _ _ _ _ _ h10 (4 : Fin 6) rfl e
  · exact fun q => qrel_nonneg_of_all x1 _ _ _ _ h11 q
  · exact fun e => (r12 e).1
  · exact fun e => (r12 e).2
  · exact fun e => (r13 e).1
  · exact fun e => (r13 e).2
  · exact fun i => real_of_all x2 _ _ _ _ h1 i
  · exact fun i => real_of_all x5 _ _ _ _ h2 i
  · exact fun i => real_of_all x12 _ _ _ _ h9 i

end Cert.PreFacts

end
-- ==== Proof.KArgs.lean ====
/-
  The argument arrays of one device's memory, as the record the specification is stated over.
-/
import proofs.«417665_j34840774705589_3_alg».proof.KernelIdeal
import proofs.«417665_j34840774705589_3_alg».proof.Proof.Spec

noncomputable section

namespace Cert.KernelIdeal

open Idealize.ShloMosaic Idealize.ShloMosaic.TcCoe Idealize.SL.Sem

/-- The arguments the results depend on, read off device `c`'s memory. -/
def args (m : (ℓ : Loc nD τ sig) → Buf (Elt Ideal) ℓ) (c : Dev nD) : Cert.Spec.Args where
  qrel := m ((c.tc : Thread nD τ).loc main_arg1)
  hidden := m ((c.tc : Thread nD τ).loc main_arg2)
  edges := m ((c.tc : Thread nD τ).loc main_arg3)
  re := m ((c.tc : Thread nD τ).loc main_arg5)
  Ws := m ((c.tc : Thread nD τ).loc main_arg6)
  Wr := m ((c.tc : Thread nD τ).loc main_arg7)
  Wq := m ((c.tc : Thread nD τ).loc main_arg8)
  b := m ((c.tc : Thread nD τ).loc main_arg9)
  wa := m ((c.tc : Thread nD τ).loc main_arg10)
  wb := m ((c.tc : Thread nD τ).loc main_arg11)
  Wh := m ((c.tc : Thread nD τ).loc main_arg12)

end Cert.KernelIdeal

end
-- ==== Proof.RArgs.lean ====
/-
  The argument arrays of one device's memory, as the record the specification is stated over.
-/
import proofs.«417665_j34840774705589_3_alg».proof.ReferenceIdeal
import proofs.«417665_j34840774705589_3_alg».proof.Proof.Spec

noncomputable section

namespace Cert.ReferenceIdeal

open Idealize.ShloMosaic Idealize.ShloMosaic.TcCoe Idealize.SL.Sem

/-- The arguments the results depend on, read off device `c`'s memory. -/
def args (m : (ℓ : Loc nD τ sig) → Buf (Elt Ideal) ℓ) (c : Dev nD) : Cert.Spec.Args where
  qrel := m ((c.tc : Thread nD τ).loc main_arg1)
  hidden := m ((c.tc : Thread nD τ).loc main_arg2)
  edges := m ((c.tc : Thread nD τ).loc main_arg3)
  re := m ((c.tc : Thread nD τ).loc main_arg5)
  Ws := m ((c.tc : Thread nD τ).loc main_arg6)
  Wr := m ((c.tc : Thread nD τ).loc main_arg7)
  Wq := m ((c.tc : Thread nD τ).loc main_arg8)
  b := m ((c.tc : Thread nD τ).loc main_arg9)
  wa := m ((c.tc : Thread nD τ).loc main_arg10)
  wb := m ((c.tc : Thread nD τ).loc main_arg11)
  Wh := m ((c.tc : Thread nD τ).loc main_arg12)

end Cert.ReferenceIdeal

end
-- ==== Proof.KTail.lean ====
/-
  The three results of the kernel's program after its run, in terms of the two arrays the pallas_call wrote.

  After the region @main reshapes the attention array [100, 1, 4000] to [400000, 1] and scatter-adds the per-edge
  rows [400000, 128] into a zero [200000, 128] array at the edges' target nodes; the sampled-nodes mask and the
  target column were computed before the region and are not touched afterwards.
-/
import proofs.«417665_j34840774705589_3_alg».proof.Proof.Gen.KernelIdeal.Frame
import Idealize.ShloMosaic.Lib.StableHlo.Run
import Idealize.ShloMosaic.PureOps.Ideal

set_option maxRecDepth 16384

noncomputable section

namespace Cert.KernelIdeal.KTail

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The region's exit contents: the two output arrays at what the run left, every other buffer as at the entry. -/
abbrev exitVal (c : Dev nD) : Valuation τ sig (Elt Ideal) :=
  Pipeline.withArrays (cfgs 0).spec c (V0 m c) (fun w => (dats m 0 c).arrAt w (cfgs 0).N)

theorem exit_attn (c : Dev nD) : exitVal m c (Proc.devRef .tc main_v26_0) = (dats m 0 c).arrAt 10 cfg0.N :=
  Pipeline.withArrays_arr spec0 launch0.win.arr_inj c _ _ 10

theorem exit_rows (c : Dev nD) : exitVal m c (Proc.devRef .tc main_v26_1) = (dats m 0 c).arrAt 11 cfg0.N :=
  Pipeline.withArrays_arr spec0 launch0.win.arr_inj c _ _ 11

theorem exit_targets (c : Dev nD) : exitVal m c (Proc.devRef .tc main_v14) = V m c main_v14 :=
  Pipeline.withArrays_of_ne _ c (V0 m c) _ main_v14 (by exact (by decide : ∀ w, Pipeline.arrRef spec0 w ≠ main_v14))

/-- The attention result: the region's attention array, reshaped. -/
theorem tail_v27 (c : Dev nD) :
    Pipeline.afterTail₀ cfgs (dats m) 0 (V0 m) [hostOps1] c main_v27
      = shapeCast S400000x1 ((dats m 0 c).arrAt 10 cfg0.N) shapeCasts_S100x1x4000_S400000x1 := by
  unfold Pipeline.afterTail₀
  show StableHlo.after hostOps1 (exitVal m c) (Proc.devRef .tc main_v27) = _
  after_results
  rw [exit_attn]
  rfl

/-- The new hidden state: the region's per-edge rows scatter-added into zeros at the edges' targets. -/
theorem tail_v30 (c : Dev nD) :
    Pipeline.afterTail₀ cfgs (dats m) 0 (V0 m) [hostOps1] c main_v30
      = Host.scatterAdd scatter_S200000x128_S400000x1_S400000x128_1_0_0_1
          (broadcastInDim S200000x128 ![] bcast_S_S200000x128 (constant (F := Ideal) S_ .f32 0x00000000#32))
          (broadcastInDim S400000x1 ![0] bcast_S400000_S400000x1_0 (V m c main_v14 : IVec S400000 32))
          ((dats m 0 c).arrAt 11 cfg0.N) := by
  unfold Pipeline.afterTail₀
  show StableHlo.after hostOps1 (exitVal m c) (Proc.devRef .tc main_v30) = _
  after_results
  rw [exit_rows, exit_targets]

/-- The mask: no operation after the region writes it, and it is no array of the region. -/
theorem tail_v8 (c : Dev nD) :
    Pipeline.afterTail₀ cfgs (dats m) 0 (V0 m) [hostOps1] c main_v8 = V m c main_v8 := by
  unfold Pipeline.afterTail₀
  rw [StableHlo.after_of_forall_not_mem (b := Proc.devRef .tc main_v8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v8 (by exact (by decide : ∀ w, Pipeline.arrRef spec0 w ≠ main_v8))]

end Cert.KernelIdeal.KTail

end
-- ==== Proof.KHost.lean ====
/-
  What the arrays read by the kernel's windows hold when the region is entered. Each is written by the host operations
  before the region (slices and reshapes of the edge list, two row gathers, two products, a concatenation, four
  reshapes), and is read here at an index as a function of the argument arrays.
-/
import proofs.«417665_j34840774705589_3_alg».proof.Proof.Gen.KernelIdeal.Frame
import proofs.«417665_j34840774705589_3_alg».proof.Proof.KArgs
import proofs.«417665_j34840774705589_3_alg».proof.Proof.LibRowGather
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KHost

open Idealize.ShloMosaic Idealize.ShloMosaic.ValueIdx Idealize.ShloMosaic.TcCoe Cert.KernelIdeal Cert.KernelIdeal.Gen
open Idealize.SL.Sem

variable (m : (ℓ : Loc nD τ sig) → Buf (Elt Ideal) ℓ) (c : Dev nD)

/-! ## Layout operations of this program read at an index -/

/-- One column of a matrix, cut out and flattened to a vector: entry `e` is the matrix at `(e, k)`, `k` the column. -/
theorem colCast_apply {α : Type} {n w : Nat} (o : Nat) (X : (⟨2, ![n, w]⟩ : Shape).Idx → α)
    (hs : (⟨2, ![n, w]⟩ : Shape).Slices ![0, o] ⟨2, ![n, 1]⟩) (hc : (⟨2, ![n, 1]⟩ : Shape).ShapeCasts ⟨1, ![n]⟩)
    (e : Fin n) (k : Fin w) (hk : k.val = o) :
    shapeCast ⟨1, ![n]⟩ (extractStridedSlice ⟨2, ![n, 1]⟩ ![0, o] X hs) hc (ix1 e) = X (ix2 e k) := by
  refine (shapeCast_apply _ hc (ix1 e) (ix2 e (0 : Fin 1)) ?_).trans ?_
  · rw [Shape.rowMajor_val_two, Shape.rowMajor_val_one]
    show e.val * 1 + 0 = e.val
    omega
  · exact slice2_axis1_apply o X hs e 0 k (by rw [hk]; rfl)

/-- A vector of `a * b` entries cast to `[a, 1, b]`: entry `(t, u, r)` is the vector at `b * t + r`. -/
theorem shapeCast_n_a1b_apply {α : Type} {n a b : Nat} (x : (⟨1, ![n]⟩ : Shape).Idx → α)
    (h : (⟨1, ![n]⟩ : Shape).ShapeCasts ⟨3, ![a, 1, b]⟩) (t : Fin a) (u : Fin 1) (r : Fin b) (k : Fin n)
    (hk : k.val = b * t.val + r.val) :
    shapeCast ⟨3, ![a, 1, b]⟩ x h (ix3 t u r) = x (ix1 k) :=
  shapeCast_apply x h _ _ (by
    have hu : u.val = 0 := by omega
    rw [Shape.rowMajor_val_three, Shape.rowMajor_val_one]
    show k.val = (t.val * 1 + u.val) * b + r.val
    rw [hk, hu, Nat.mul_one, Nat.add_zero, Nat.mul_comm])

/-- A vector broadcast to a one-column matrix: entry `(p, u)` is the vector at `p`. -/
theorem bcastCol_apply {α : Type} {n : Nat} (h : (⟨1, ![n]⟩ : Shape).BroadcastsInDim ⟨2, ![n, 1]⟩ ![0])
    (x : (⟨1, ![n]⟩ : Shape).Idx → α) (p : Fin n) (u : Fin 1) :
    broadcastInDim ⟨2, ![n, 1]⟩ ![0] h x (ix2 p u) = x (ix1 p) :=
  broadcastInDim_apply _ h x _ _ (fun a => match a with
    | ⟨0, _⟩ => by
      show p.val = if n = 1 then 0 else p.val
      split
      · omega
      · rfl)

/-! ## The two host products at an index -/

theorem lhs_dotQ_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_dotQ_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhs_dotQ_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhs_dotQ_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The host's product of a [256, 128] array with a [128, 128] array, at the ideal instance, at `(p, k)`: the plain sum over
    the contracted axis. -/
theorem dotQ_apply (x : FVec Ideal S256x128 .f32) (y : FVec Ideal S128x128 .f32)
    (p : Fin 256) (k : Fin 128) :
    Host.dotGeneral (F := Ideal) dot_S256x128_S128x128_S256x128_1_0_0_1_n_n none x y (ix2 p k) = ∑ d : Fin 128, x (ix2 p d) * y (ix2 d k) := by
  simp only [Host.dotGeneral]
  rw [Ideal.dotGeneral_apply, ← Equiv.sum_comp (ValueIdx.contrEquiv1 dot_S256x128_S128x128_S256x128_1_0_0_1_n_n 128 rfl rfl).symm]
  refine Finset.sum_congr rfl fun d _ => ?_
  have hk := ValueIdx.contrEquiv1_symm_val dot_S256x128_S128x128_S256x128_1_0_0_1_n_n 128 rfl rfl d
  have el : dot_S256x128_S128x128_S256x128_1_0_0_1_n_n.lhsIdx (ix2 p k) ((ValueIdx.contrEquiv1 dot_S256x128_S128x128_S256x128_1_0_0_1_n_n 128 rfl rfl).symm d) = ix2 p d := funext fun a => Fin.ext (by
    match a with
    | ⟨0, _⟩ => exact lhs_dotQ_0 _ _
    | ⟨1, _⟩ => exact (lhs_dotQ_1 _ _).trans hk)
  have er : dot_S256x128_S128x128_S256x128_1_0_0_1_n_n.rhsIdx (ix2 p k) ((ValueIdx.contrEquiv1 dot_S256x128_S128x128_S256x128_1_0_0_1_n_n 128 rfl rfl).symm d) = ix2 d k := funext fun a => Fin.ext (by
    match a with
    | ⟨0, _⟩ => exact (rhs_dotQ_0 _ _).trans hk
    | ⟨1, _⟩ => exact rhs_dotQ_1 _ _)
  rw [el, er]

theorem lhs_dotR_0 (i : S51x128.Idx) (q : dot_S51x128_S128x128_S51x128_1_0_0_1_n_n.contr.Idx) :
    (dot_S51x128_S128x128_S51x128_1_0_0_1_n_n.lhsIdx i q 0).val = (i 0).val := by
  unfold DotDims.lhsIdx
  rw [dif_neg (show ¬(0 : Fin S51x128.rank) ∈ dot_S51x128_S128x128_S51x128_1_0_0_1_n_n.lhsBatch by decide), dif_pos (show (0 : Fin S51x128.rank) ∈ dot_S51x128_S128x128_S51x128_1_0_0_1_n_n.lhsNonContracting by decide)]
  rfl
theorem lhs_dotR_1 (i : S51x128.Idx) (q : dot_S51x128_S128x128_S51x128_1_0_0_1_n_n.contr.Idx) :
    (dot_S51x128_S128x128_S51x128_1_0_0_1_n_n.lhsIdx i q 1).val = (q ⟨0, by decide⟩).val :=
  dot_S51x128_S128x128_S51x128_1_0_0_1_n_n.lhsIdx_val_of_single rfl i q
theorem rhs_dotR_0 (i : S51x128.Idx) (q : dot_S51x128_S128x128_S51x128_1_0_0_1_n_n.contr.Idx) :
    (dot_S51x128_S128x128_S51x128_1_0_0_1_n_n.rhsIdx i q 0).val = (q ⟨0, by decide⟩).val :=
  dot_S51x128_S128x128_S51x128_1_0_0_1_n_n.rhsIdx_val_of_single rfl i q
theorem rhs_dotR_1 (i : S51x128.Idx) (q : dot_S51x128_S128x128_S51x128_1_0_0_1_n_n.contr.Idx) :
    (dot_S51x128_S128x128_S51x128_1_0_0_1_n_n.rhsIdx i q 1).val = (i 1).val := by
  unfold DotDims.rhsIdx
  rw [dif_neg (show ¬(1 : Fin S128x128.rank) ∈ dot_S51x128_S128x128_S51x128_1_0_0_1_n_n.rhsBatch by decide), dif_pos (show (1 : Fin S128x128.rank) ∈ dot_S51x128_S128x128_S51x128_1_0_0_1_n_n.rhsNonContracting by decide)]
  rfl

/-- The host's product of a [51, 128] array with a [128, 128] array, at the ideal instance, at `(p, k)`: the plain sum over
    the contracted axis. -/
theorem dotR_apply (x : FVec Ideal S51x128 .f32) (y : FVec Ideal S128x128 .f32)
    (p : Fin 51) (k : Fin 128) :
    Host.dotGeneral (F := Ideal) dot_S51x128_S128x128_S51x128_1_0_0_1_n_n none x y (ix2 p k) = ∑ d : Fin 128, x (ix2 p d) * y (ix2 d k) := by
  simp only [Host.dotGeneral]
  rw [Ideal.dotGeneral_apply, ← Equiv.sum_comp (ValueIdx.contrEquiv1 dot_S51x128_S128x128_S51x128_1_0_0_1_n_n 128 rfl rfl).symm]
  refine Finset.sum_congr rfl fun d _ => ?_
  have hk := ValueIdx.contrEquiv1_symm_val dot_S51x128_S128x128_S51x128_1_0_0_1_n_n 128 rfl rfl d
  have el : dot_S51x128_S128x128_S51x128_1_0_0_1_n_n.lhsIdx (ix2 p k) ((ValueIdx.contrEquiv1 dot_S51x128_S128x128_S51x128_1_0_0_1_n_n 128 rfl rfl).symm d) = ix2 p d := funext fun a => Fin.ext (by
    match a with
    | ⟨0, _⟩ => exact lhs_dotR_0 _ _
    | ⟨1, _⟩ => exact (lhs_dotR_1 _ _).trans hk)
  have er : dot_S51x128_S128x128_S51x128_1_0_0_1_n_n.rhsIdx (ix2 p k) ((ValueIdx.contrEquiv1 dot_S51x128_S128x128_S51x128_1_0_0_1_n_n 128 rfl rfl).symm d) = ix2 d k := funext fun a => Fin.ext (by
    match a with
    | ⟨0, _⟩ => exact (rhs_dotR_0 _ _).trans hk
    | ⟨1, _⟩ => exact rhs_dotR_1 _ _)
  rw [el, er]

/-! ## The arrays at region entry, as terms of the arguments and at an index -/

/-- The bias as a one-row matrix. -/
theorem V24_eq : (V m c main_v24 : S1x128.Idx → EReal)
    = shapeCast S1x128 (m ((c.tc : Thread nD τ).loc main_arg9)) shapeCasts_S128_S1x128 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The projection's bias as a one-by-one matrix. -/
theorem V25_eq : (V m c main_v25 : S1x1.Idx → EReal)
    = shapeCast S1x1 (m ((c.tc : Thread nD τ).loc main_arg11)) shapeCasts_S1_S1x1 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Entry `(0, k)` of the bias row is the bias at `k`. -/
theorem V24_apply (k : Fin 128) :
    (V m c main_v24 : S1x128.Idx → EReal) (ix2 (0 : Fin 1) k) = (args m c).b (ix1 k) := by
  rw [V24_eq]
  exact shapeCast_a_1a_apply _ _ _ _

/-- The one entry of the projection's bias. -/
theorem V25_apply :
    (V m c main_v25 : S1x1.Idx → EReal) (ix2 (0 : Fin 1) (0 : Fin 1)) = (args m c).wb (ix1 (0 : Fin 1)) := by
  rw [V25_eq]
  exact shapeCast_a_1a_apply _ _ _ _

/-- The target column of the edge list, flattened. -/
theorem V14_eq : (V m c main_v14 : IVec S400000 32)
    = shapeCast S400000 (extractStridedSlice S400000x1 ![0, 5] (m ((c.tc : Thread nD τ).loc main_arg3)) slices_S400000x6_S400000x1_0_5) shapeCasts_S400000x1_S400000 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Entry `e` of the target column is column 5 of the edge list at edge `e`. -/
theorem V14_apply (e : Fin 400000) :
    (V m c main_v14 : IVec S400000 32) (ix1 e) = (args m c).col 5 e := by
  rw [V14_eq]
  exact colCast_apply 5 _ _ _ e 5 rfl

/-- The relation column of the edge list, flattened and cut into 100 blocks of 4000. -/
theorem V22_eq : (V m c main_v22 : IVec S100x1x4000 32)
    = shapeCast S100x1x4000 (shapeCast S400000 (extractStridedSlice S400000x1 ![0, 2] (m ((c.tc : Thread nD τ).loc main_arg3)) slices_S400000x6_S400000x1_0_2) shapeCasts_S400000x1_S400000) shapeCasts_S400000_S100x1x4000 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Entry `(t, 0, r)` of the blocked relation column is column 2 of the edge list at edge `4000 t + r`. -/
theorem V22_apply (t : Fin 100) (r : Fin 4000) :
    (V m c main_v22 : IVec S100x1x4000 32) (ix3 t (0 : Fin 1) r)
      = (args m c).col 2 ⟨4000 * t.val + r.val, by omega⟩ := by
  rw [V22_eq]
  refine (shapeCast_n_a1b_apply _ _ t 0 r ⟨4000 * t.val + r.val, by omega⟩ rfl).trans ?_
  exact colCast_apply 2 _ _ _ _ 2 rfl

/-- The source rows of the hidden table: a row gather by the source column of the edge list. -/
theorem V17_eq : (V m c main_v17 : S400000x128.Idx → EReal)
    = Host.gather gather_S200000x128_S400000x1_S400000x128_1_0_n_n_0_1_1128 (m ((c.tc : Thread nD τ).loc main_arg2))
        (broadcastInDim S400000x1 ![0] bcast_S400000_S400000x1_0
          (shapeCast S400000 (extractStridedSlice S400000x1 ![0, 4] (m ((c.tc : Thread nD τ).loc main_arg3)) slices_S400000x6_S400000x1_0_4) shapeCasts_S400000x1_S400000)) := by
  dsimp only [Gen.V, Gen.V0]
  simp only [Gen.hostOps0, Gen.hostOps0_1, Gen.hostOps0_2, Gen.hostOps0_3, List.flatten_cons, List.flatten_nil, List.append_nil, List.cons_append, List.nil_append]
  after_results_simp <;> (try simp only [StableHlo.TRef.ofBuf, StableHlo.TRef.toBuf, cast_eq]) <;> rfl

/-- Row `e` of the gathered hidden table is the hidden row of the source of edge `e`. -/
theorem V17_apply (e : Fin 400000) (d : Fin 128) :
    (V m c main_v17 : S400000x128.Idx → EReal) (ix2 e d) = (args m c).hs e d := by
  refine (congrFun (V17_eq m c) (ix2 e d)).trans ?_
  refine (RowGather.gather_rows_apply gather_S200000x128_S400000x1_S400000x128_1_0_n_n_0_1_1128 rfl rfl rfl rfl rfl _ _ e d (by decide)).trans ?_
  rw [bcastCol_apply, colCast_apply 4 _ _ _ e 4 rfl]
  rfl

/-- The query column of the edge list, flattened and cut into 100 blocks of 4000. -/
theorem V23_eq : (V m c main_v23 : IVec S100x1x4000 32)
    = shapeCast S100x1x4000 (shapeCast S400000 (extractStridedSlice S400000x1 ![0, 0] (m ((c.tc : Thread nD τ).loc main_arg3)) slices_S400000x6_S400000x1_0_0) shapeCasts_S400000x1_S400000) shapeCasts_S400000_S100x1x4000 := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

/-- Entry `(t, 0, r)` of the blocked query column is column 0 of the edge list at edge `4000 t + r`. -/
theorem V23_apply (t : Fin 100) (r : Fin 4000) :
    (V m c main_v23 : IVec S100x1x4000 32) (ix3 t (0 : Fin 1) r)
      = (args m c).col 0 ⟨4000 * t.val + r.val, by omega⟩ := by
  refine (congrFun (V23_eq m c) _).trans ?_
  refine (shapeCast_n_a1b_apply _ _ t 0 r ⟨4000 * t.val + r.val, by omega⟩ rfl).trans ?_
  exact colCast_apply 0 _ _ _ _ 0 rfl

/-- The query table: the relation rows of the queries, times `Wq`. -/
theorem V19_eq : (V m c main_v19 : S256x128.Idx → EReal)
    = Host.dotGeneral (F := Ideal) (φ₁ := .f32) (φ₂ := .f32) dot_S256x128_S128x128_S256x128_1_0_0_1_n_n none
        (Host.gather (α := EReal) gather_S51x128_S256x1_S256x128_1_0_n_n_0_1_1128 (m ((c.tc : Thread nD τ).loc main_arg5))
          (broadcastInDim S256x1 ![0] bcast_S256_S256x1_0 (m ((c.tc : Thread nD τ).loc main_arg1))))
        (m ((c.tc : Thread nD τ).loc main_arg8)) := by
  dsimp only [Gen.V, Gen.V0]
  simp only [Gen.hostOps0, Gen.hostOps0_1, Gen.hostOps0_2, Gen.hostOps0_3, List.flatten_cons, List.flatten_nil, List.append_nil, List.cons_append, List.nil_append]
  after_results_simp <;> (try simp only [StableHlo.TRef.ofBuf, StableHlo.TRef.toBuf, cast_eq]) <;> rfl

/-- The query table's row gather at `(q, d)`: the relation table at the clamped row the query's relation names. -/
theorem gatherQ_apply (x : FVec Ideal S51x128 .f32) (i : IVec S256 32) (q : Fin 256) (d : Fin 128) :
    Host.gather (α := EReal) gather_S51x128_S256x1_S256x128_1_0_n_n_0_1_1128 x (broadcastInDim S256x1 ![0] bcast_S256_S256x1_0 i) (ix2 q d)
      = x (ix2 (RowGather.clampRow 51 (by decide) (i (ix1 q))) d) := by
  rw [RowGather.gather_rows_apply gather_S51x128_S256x1_S256x128_1_0_n_n_0_1_1128 rfl rfl rfl rfl rfl _ _ q d (by decide), bcastCol_apply]

/-- Entry `(q, k)` of the query table is `Σ_d hqTab q d · Wq d k`. -/
theorem V19_apply (q : Fin 256) (k : Fin 128) :
    (V m c main_v19 : S256x128.Idx → EReal) (ix2 q k)
      = ∑ d : Fin 128, (args m c).hqTab q d * (args m c).Wq (ix2 d k) := by
  refine (congrFun (V19_eq m c) (ix2 q k)).trans ?_
  refine (dotQ_apply _ _ q k).trans ?_
  refine Finset.sum_congr rfl fun d _ => ?_
  rw [gatherQ_apply]
  rfl

/-- The relation table: the relation embeddings beside their product with `Wr`. -/
theorem V21_eq : (V m c main_v21 : S51x256.Idx → EReal)
    = concatenate (α := EReal) S51x256 1 [⟨S51x128, (m ((c.tc : Thread nD τ).loc main_arg5))⟩,
        ⟨S51x128, Host.dotGeneral (F := Ideal) (φ₁ := .f32) (φ₂ := .f32) dot_S51x128_S128x128_S51x128_1_0_0_1_n_n none (m ((c.tc : Thread nD τ).loc main_arg5)) (m ((c.tc : Thread nD τ).loc main_arg7))⟩]
        concatenates_S51x128_S51x128_S51x256_d1 := by
  dsimp only [Gen.V, Gen.V0]
  simp only [Gen.hostOps0, Gen.hostOps0_1, Gen.hostOps0_2, Gen.hostOps0_3, List.flatten_cons, List.flatten_nil, List.append_nil, List.cons_append, List.nil_append]
  after_results

/-- The left half of the relation table is the relation embedding. -/
theorem V21_lo (v : Fin 51) (k : Fin 128) :
    (V m c main_v21 : S51x256.Idx → EReal) (ix2 v (⟨k.val, by omega⟩ : Fin 256)) = (args m c).re (ix2 v k) := by
  refine (congrFun (V21_eq m c) _).trans ?_
  exact concatenate_pair_apply_left (1 : Fin S51x256.rank) _ _ concatenates_S51x128_S51x128_S51x256_d1 _ rfl (ix2 v k)
    (fun b => match b with | ⟨0, _⟩ => rfl | ⟨1, _⟩ => rfl)

/-- The right half of the relation table is the relation embedding times `Wr`. -/
theorem V21_hi (v : Fin 51) (k : Fin 128) :
    (V m c main_v21 : S51x256.Idx → EReal) (ix2 v (⟨128 + k.val, by omega⟩ : Fin 256))
      = ∑ d : Fin 128, (args m c).re (ix2 v d) * (args m c).Wr (ix2 d k) := by
  refine (congrFun (V21_eq m c) _).trans ?_
  refine (concatenate_pair_apply_right (1 : Fin S51x256.rank) _ _ concatenates_S51x128_S51x128_S51x256_d1 _ rfl rfl (ix2 v k)
    (fun b => match b with | ⟨0, _⟩ => fun _ => rfl | ⟨1, _⟩ => fun h => absurd rfl h) ?_).trans ?_
  · show k.val + 128 = 128 + k.val
    omega
  · exact dotR_apply _ _ v k

/-- The sampled-nodes mask: the node column strictly between the two bounds, as the operations compute it. -/
theorem V8_eq :
    (V m c main_v8 : IVec S200000 1)
      = andi (cmpi .sgt (shapeCast S200000 (extractStridedSlice S200000x1 ![0, 1] (m ((c.tc : Thread nD τ).loc main_arg4)) slices_S200000x2_S200000x1_0_1) shapeCasts_S200000x1_S200000) (broadcastInDim S200000 ![] bcast_S_S200000 (constantI S_ 32 4294967295#32)))
          (cmpi .slt (shapeCast S200000 (extractStridedSlice S200000x1 ![0, 1] (m ((c.tc : Thread nD τ).loc main_arg4)) slices_S200000x2_S200000x1_0_1) shapeCasts_S200000x1_S200000) (broadcastInDim S200000 ![] bcast_S_S200000 (constantI S_ 32 100001#32))) := by
  dsimp only [Gen.V, Gen.V0]
  simp only [Gen.hostOps0, Gen.hostOps0_1, Gen.hostOps0_2, Gen.hostOps0_3, List.flatten_cons, List.flatten_nil, List.append_nil, List.cons_append, List.nil_append]
  after_results_simp
  rfl

end Cert.KernelIdeal.KHost

end
-- ==== Proof.KBodyA.lean ====
/-
  Three values of the kernel body read at an index: the source rows pass through unchanged; the relation rows
  are the rows of the relation table selected by a one-hot matrix product; the pre-activation is the sum of the
  source product, the selected relation row's second half, the selected query row and the bias.

  The core is the one-hot product: the matrix with entry (k, r) equal to 1 when k is the index of row r and 0
  otherwise, contracted with a table over k, reads at (r, c) the table's row number (index of r) at column c.
-/
import proofs.«417665_j34840774705589_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.KBody

open Idealize.ShloMosaic Idealize.ShloMosaic.ValueIdx Cert.KernelIdeal Cert.KernelIdeal.Gen

/-! ## The one-hot entry and the one-hot sum -/

/-- The comparison word of two 32-bit words, widened and converted, is the real 1 when they are equal and 0 otherwise. -/
theorem onehot_entry (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.2 h]
    show ((((1#1 : BitVec 1).setWidth 32).toInt : ℝ) : EReal) = 1
    have e : ((1#1 : BitVec 1).setWidth 32).toInt = 1 := by decide
    rw [e]; simp
  · rw [if_neg h, eq_zero_of_ne_one (fun h' => h (StableHlo.Predicate.cmpi_eq_iff.1 h'))]
    show ((((0#1 : BitVec 1).setWidth 32).toInt : ℝ) : EReal) = 0
    have e : ((0#1 : BitVec 1).setWidth 32).toInt = 0 := by decide
    rw [e]; simp

/-- Below 2^32 the 32-bit word of a number determines the number. -/
theorem ofNat_inj_of_lt {a b : Nat} (ha : a < 2 ^ 32) (hb : b < 2 ^ 32) (h : BitVec.ofNat 32 a = BitVec.ofNat 32 b) : a = b := by
  have := congrArg BitVec.toNat h
  rw [BitVec.toNat_ofNat, BitVec.toNat_ofNat, Nat.mod_eq_of_lt ha, Nat.mod_eq_of_lt hb] at this
  exact this

/-- A sum whose weights are 1 at the index a word names and 0 elsewhere is the term at that index. -/
theorem onehot_sum {N : Nat} (hN : N ≤ 2 ^ 32) (w : BitVec 32) (j : Fin N) (hw : w = BitVec.ofNat 32 j.val) (f : Fin N → EReal) :
    ∑ k : Fin N, (if BitVec.ofNat 32 k.val = w then (1 : EReal) else 0) * f k = f j := by
  rw [Finset.sum_eq_single j]
  · rw [if_pos hw.symm, one_mul]
  · intro k _ hk
    rw [if_neg, zero_mul]
    intro h
    apply hk
    rw [hw] at h
    exact Fin.ext (ofNat_inj_of_lt (by have := k.isLt; omega) (by have := j.isLt; omega) h)
  · intro h
    exact absurd (Finset.mem_univ _) h

/-! ## A product contracting the first axis of both operands, read at an index -/

/-- A matrix product into the zero accumulator whose one contraction axis is axis 0 of both operands reads, at (r, c),
    the sum over k of the left operand at (k, r) times the right operand at (k, c). The four axis facts say which
    coordinate of the result or of the contraction index each operand axis reads. -/
theorem matmul_contr0_apply {N R C : Nat} {φ₁ φ₂ : FTy}
    (D : DotDims (⟨2, ![N, R]⟩ : Shape) (⟨2, ![N, C]⟩ : Shape) (⟨2, ![R, C]⟩ : Shape))
    (hr : D.contr.rank = 1) (hs : D.contr.size ⟨0, by omega⟩ = N)
    (l0 : ∀ (i : (⟨2, ![R, C]⟩ : Shape).Idx) (q : D.contr.Idx), (D.lhsIdx i q 0).val = (q ⟨0, by omega⟩).val)
    (l1 : ∀ (i : (⟨2, ![R, C]⟩ : Shape).Idx) (q : D.contr.Idx), (D.lhsIdx i q 1).val = (i 0).val)
    (r0 : ∀ (i : (⟨2, ![R, C]⟩ : Shape).Idx) (q : D.contr.Idx), (D.rhsIdx i q 0).val = (q ⟨0, by omega⟩).val)
    (r1 : ∀ (i : (⟨2, ![R, C]⟩ : Shape).Idx) (q : D.contr.Idx), (D.rhsIdx i q 1).val = (i 1).val)
    (lhs : FVec Ideal (⟨2, ![N, R]⟩ : Shape) φ₁) (rhs : FVec Ideal (⟨2, ![N, C]⟩ : Shape) φ₂) (r : Fin R) (c : Fin C) :
    matmul D none lhs rhs (constant (F := Ideal) (⟨2, ![R, C]⟩ : Shape) .f32 0x00000000#32) (ix2 r c)
      = ∑ k : Fin N, lhs (ix2 k r) * rhs (ix2 k c) := by
  simp only [matmul]
  rw [Ideal.matmul_constant_zero_apply, ← Equiv.sum_comp (contrEquiv1 D N hr hs).symm]
  refine Finset.sum_congr rfl fun k _ => ?_
  have hk := contrEquiv1_symm_val D N hr hs k
  have el : D.lhsIdx (ix2 r c) ((contrEquiv1 D N hr hs).symm k) = ix2 k r := funext fun a => Fin.ext (by
    match a with
    | ⟨0, _⟩ => exact (l0 _ _).trans hk
    | ⟨1, _⟩ => exact l1 _ _)
  have er : D.rhsIdx (ix2 r c) ((contrEquiv1 D N hr hs).symm k) = ix2 k c := funext fun a => Fin.ext (by
    match a with
    | ⟨0, _⟩ => exact (r0 _ _).trans hk
    | ⟨1, _⟩ => exact r1 _ _)
  rw [el, er]

/-- A matrix product into the zero accumulator contracting axis 1 of the left operand with axis 0 of the right reads,
    at (r, c), the sum over d of the left operand at (r, d) times the right operand at (d, c). -/
theorem matmul_std_apply {R K C : Nat} {φ₁ φ₂ : FTy}
    (D : DotDims (⟨2, ![R, K]⟩ : Shape) (⟨2, ![K, C]⟩ : Shape) (⟨2, ![R, C]⟩ : Shape))
    (hr : D.contr.rank = 1) (hs : D.contr.size ⟨0, by omega⟩ = K)
    (l0 : ∀ (i : (⟨2, ![R, C]⟩ : Shape).Idx) (q : D.contr.Idx), (D.lhsIdx i q 0).val = (i 0).val)
    (l1 : ∀ (i : (⟨2, ![R, C]⟩ : Shape).Idx) (q : D.contr.Idx), (D.lhsIdx i q 1).val = (q ⟨0, by omega⟩).val)
    (r0 : ∀ (i : (⟨2, ![R, C]⟩ : Shape).Idx) (q : D.contr.Idx), (D.rhsIdx i q 0).val = (q ⟨0, by omega⟩).val)
    (r1 : ∀ (i : (⟨2, ![R, C]⟩ : Shape).Idx) (q : D.contr.Idx), (D.rhsIdx i q 1).val = (i 1).val)
    (lhs : FVec Ideal (⟨2, ![R, K]⟩ : Shape) φ₁) (rhs : FVec Ideal (⟨2, ![K, C]⟩ : Shape) φ₂) (r : Fin R) (c : Fin C) :
    matmul D none lhs rhs (constant (F := Ideal) (⟨2, ![R, C]⟩ : Shape) .f32 0x00000000#32) (ix2 r c)
      = ∑ d : Fin K, lhs (ix2 r d) * rhs (ix2 d c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact l0 _ _
    | ⟨1, _⟩ => exact (l1 _ _).trans hk)
  have er : D.rhsIdx (ix2 r c) ((contrEquiv1 D K hr hs).symm k) = ix2 k c := funext fun a => Fin.ext (by
    match a with
    | ⟨0, _⟩ => exact (r0 _ _).trans hk
    | ⟨1, _⟩ => exact r1 _ _)
  rw [el, er]

/-! ## The one-hot matrix read at an index -/

/-- The matrix "convert (widen (the row number = the index row broadcast over the rows))" reads, at (k, r), 1 when
    the word of k is the index row's word at r and 0 otherwise. -/
theorem oneHot_apply {N R : Nat} (hi : (⟨2, ![N, R]⟩ : Shape).Iotas .tc 32 [0])
    (hb : (⟨2, ![1, R]⟩ : Shape).Broadcasts (⟨2, ![N, R]⟩ : Shape)) (row : IVec (⟨2, ![1, R]⟩ : Shape) 32)
    (h1 : 1 < 32) (h2 : FTy.bits .bf16 < FTy.bits .f32) (k : Fin N) (r : Fin R) :
    (truncf .bf16 (sitofp .f32 (extui 32 (cmpi .eq (iota .tc (⟨2, ![N, R]⟩ : Shape) 32 [0] hi)
        (broadcastTo (⟨2, ![N, R]⟩ : Shape) row hb)) h1) : FVec Ideal (⟨2, ![N, R]⟩ : Shape) .f32) h2
        : FVec Ideal (⟨2, ![N, R]⟩ : Shape) .bf16) (ix2 k r)
      = if BitVec.ofNat 32 k.val = row (ix2 (0 : Fin 1) r) then (1 : EReal) else 0 := by
  rw [truncf_apply, sitofp_apply, extui_apply]
  show FloatOps.sitofp (F := Ideal) .f32 ((IntOp.cmpi .eq (iota .tc (⟨2, ![N, R]⟩ : Shape) 32 [0] hi (ix2 k r))
      (broadcastTo (⟨2, ![N, R]⟩ : Shape) row hb (ix2 k r))).setWidth 32) = _
  rw [iota_single_apply, broadcastTo_1b_ab_apply, onehot_entry]
  rfl

/-- The one-hot product: contracted with a table over k, the one-hot matrix of an index row whose word at r names
    the table row `idx r` reads, at (r, c), the table at (`idx r`, c). -/
theorem oneHot_matmul_apply {N R C : Nat} {φ₂ : FTy} (hN : N ≤ 2 ^ 32)
    (D : DotDims (⟨2, ![N, R]⟩ : Shape) (⟨2, ![N, C]⟩ : Shape) (⟨2, ![R, C]⟩ : Shape))
    (hr : D.contr.rank = 1) (hs : D.contr.size ⟨0, by omega⟩ = N)
    (l0 : ∀ (i : (⟨2, ![R, C]⟩ : Shape).Idx) (q : D.contr.Idx), (D.lhsIdx i q 0).val = (q ⟨0, by omega⟩).val)
    (l1 : ∀ (i : (⟨2, ![R, C]⟩ : Shape).Idx) (q : D.contr.Idx), (D.lhsIdx i q 1).val = (i 0).val)
    (r0 : ∀ (i : (⟨2, ![R, C]⟩ : Shape).Idx) (q : D.contr.Idx), (D.rhsIdx i q 0).val = (q ⟨0, by omega⟩).val)
    (r1 : ∀ (i : (⟨2, ![R, C]⟩ : Shape).Idx) (q : D.contr.Idx), (D.rhsIdx i q 1).val = (i 1).val)
    (hi : (⟨2, ![N, R]⟩ : Shape).Iotas .tc 32 [0])
    (hb : (⟨2, ![1, R]⟩ : Shape).Broadcasts (⟨2, ![N, R]⟩ : Shape)) (row : IVec (⟨2, ![1, R]⟩ : Shape) 32)
    (h1 : 1 < 32) (h2 : FTy.bits .bf16 < FTy.bits .f32)
    (tab : FVec Ideal (⟨2, ![N, C]⟩ : Shape) φ₂) (idx : Fin R → Fin N)
    (hrow : ∀ r : Fin R, row (ix2 (0 : Fin 1) r) = BitVec.ofNat 32 (idx r).val) (r : Fin R) (c : Fin C) :
    matmul D none
        (truncf .bf16 (sitofp .f32 (extui 32 (cmpi .eq (iota .tc (⟨2, ![N, R]⟩ : Shape) 32 [0] hi)
          (broadcastTo (⟨2, ![N, R]⟩ : Shape) row hb)) h1) : FVec Ideal (⟨2, ![N, R]⟩ : Shape) .f32) h2
          : FVec Ideal (⟨2, ![N, R]⟩ : Shape) .bf16)
        tab (constant (F := Ideal) (⟨2, ![R, C]⟩ : Shape) .f32 0x00000000#32) (ix2 r c)
      = tab (ix2 (idx r) c) := by
  rw [matmul_contr0_apply D hr hs l0 l1 r0 r1]
  have e : ∀ k : Fin N,
      (truncf .bf16 (sitofp .f32 (extui 32 (cmpi .eq (iota .tc (⟨2, ![N, R]⟩ : Shape) 32 [0] hi)
          (broadcastTo (⟨2, ![N, R]⟩ : Shape) row hb)) h1) : FVec Ideal (⟨2, ![N, R]⟩ : Shape) .f32) h2
          : FVec Ideal (⟨2, ![N, R]⟩ : Shape) .bf16) (ix2 k r) * tab (ix2 k c)
        = (if BitVec.ofNat 32 k.val = row (ix2 (0 : Fin 1) r) then (1 : EReal) else 0) * tab (ix2 k c) :=
    fun k => by rw [oneHot_apply]
  rw [Finset.sum_congr rfl fun k _ => e k]
  exact onehot_sum hN _ (idx r) (hrow r) fun k => tab (ix2 k c)

/-! ## The three products of the kernel body: which coordinate each operand axis reads -/

/- The relation product: [51, 4000] with [51, 256], contracting axis 0 of both. -/
theorem rel_lhs_0 (i : S4000x256.Idx) (q : dot_S51x4000_S51x256_S4000x256_0_0_1_1_n_n.contr.Idx) :
    (dot_S51x4000_S51x256_S4000x256_0_0_1_1_n_n.lhsIdx i q 0).val = (q ⟨0, by decide⟩).val :=
  dot_S51x4000_S51x256_S4000x256_0_0_1_1_n_n.lhsIdx_val_of_single rfl i q
theorem rel_lhs_1 (i : S4000x256.Idx) (q : dot_S51x4000_S51x256_S4000x256_0_0_1_1_n_n.contr.Idx) :
    (dot_S51x4000_S51x256_S4000x256_0_0_1_1_n_n.lhsIdx i q 1).val = (i 0).val := by
  unfold DotDims.lhsIdx
  rw [dif_neg (show ¬(1 : Fin S51x4000.rank) ∈ dot_S51x4000_S51x256_S4000x256_0_0_1_1_n_n.lhsBatch by decide),
    dif_pos (show (1 : Fin S51x4000.rank) ∈ dot_S51x4000_S51x256_S4000x256_0_0_1_1_n_n.lhsNonContracting by decide)]
  rfl
theorem rel_rhs_0 (i : S4000x256.Idx) (q : dot_S51x4000_S51x256_S4000x256_0_0_1_1_n_n.contr.Idx) :
    (dot_S51x4000_S51x256_S4000x256_0_0_1_1_n_n.rhsIdx i q 0).val = (q ⟨0, by decide⟩).val :=
  dot_S51x4000_S51x256_S4000x256_0_0_1_1_n_n.rhsIdx_val_of_single rfl i q
theorem rel_rhs_1 (i : S4000x256.Idx) (q : dot_S51x4000_S51x256_S4000x256_0_0_1_1_n_n.contr.Idx) :
    (dot_S51x4000_S51x256_S4000x256_0_0_1_1_n_n.rhsIdx i q 1).val = (i 1).val := by
  unfold DotDims.rhsIdx
  rw [dif_neg (show ¬(1 : Fin S51x256.rank) ∈ dot_S51x4000_S51x256_S4000x256_0_0_1_1_n_n.rhsBatch by decide),
    dif_pos (show (1 : Fin S51x256.rank) ∈ dot_S51x4000_S51x256_S4000x256_0_0_1_1_n_n.rhsNonContracting by decide)]
  rfl

/- The query product: [256, 4000] with [256, 128], contracting axis 0 of both. -/
theorem qry_lhs_0 (i : S4000x128.Idx) (q : dot_S256x4000_S256x128_S4000x128_0_0_1_1_n_n.contr.Idx) :
    (dot_S256x4000_S256x128_S4000x128_0_0_1_1_n_n.lhsIdx i q 0).val = (q ⟨0, by decide⟩).val :=
  dot_S256x4000_S256x128_S4000x128_0_0_1_1_n_n.lhsIdx_val_of_single rfl i q
theorem qry_lhs_1 (i : S4000x128.Idx) (q : dot_S256x4000_S256x128_S4000x128_0_0_1_1_n_n.contr.Idx) :
    (dot_S256x4000_S256x128_S4000x128_0_0_1_1_n_n.lhsIdx i q 1).val = (i 0).val := by
  unfold DotDims.lhsIdx
  rw [dif_neg (show ¬(1 : Fin S256x4000.rank) ∈ dot_S256x4000_S256x128_S4000x128_0_0_1_1_n_n.lhsBatch by decide),
    dif_pos (show (1 : Fin S256x4000.rank) ∈ dot_S256x4000_S256x128_S4000x128_0_0_1_1_n_n.lhsNonContracting by decide)]
  rfl
theorem qry_rhs_0 (i : S4000x128.Idx) (q : dot_S256x4000_S256x128_S4000x128_0_0_1_1_n_n.contr.Idx) :
    (dot_S256x4000_S256x128_S4000x128_0_0_1_1_n_n.rhsIdx i q 0).val = (q ⟨0, by decide⟩).val :=
  dot_S256x4000_S256x128_S4000x128_0_0_1_1_n_n.rhsIdx_val_of_single rfl i q
theorem qry_rhs_1 (i : S4000x128.Idx) (q : dot_S256x4000_S256x128_S4000x128_0_0_1_1_n_n.contr.Idx) :
    (dot_S256x4000_S256x128_S4000x128_0_0_1_1_n_n.rhsIdx i q 1).val = (i 1).val := by
  unfold DotDims.rhsIdx
  rw [dif_neg (show ¬(1 : Fin S256x128.rank) ∈ dot_S256x4000_S256x128_S4000x128_0_0_1_1_n_n.rhsBatch by decide),
    dif_pos (show (1 : Fin S256x128.rank) ∈ dot_S256x4000_S256x128_S4000x128_0_0_1_1_n_n.rhsNonContracting by decide)]
  rfl

/- The source product: [4000, 128] with [128, 128], contracting axis 1 of the left with axis 0 of the right. -/
theorem src_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem src_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem src_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem src_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-! ## The payloads -/

/-- The source rows pass through a cast to their own shape. -/
theorem pay4_eq (x0 : Vec Ideal S4000x128 .f32) : k0_pay4 (F := Ideal) x0 = x0 := by
  unfold k0_pay4
  exact shapeCast_self _ _

/-- The index row of a block, viewed [1, 4000], reads the block's word at (0, 0, r). -/
theorem idxRow_apply (x : Vec Ideal S1x1x4000 .i32) (r : Fin 4000) :
    (shapeCast S1x4000 (shapeCast S1x1x4000 x shapeCasts_S1x1x4000_S1x1x4000) shapeCasts_S1x1x4000_S1x4000 : IVec S1x4000 32)
        (ix2 (0 : Fin 1) r) = x (ix3 (0 : Fin 1) (0 : Fin 1) r) := by
  rw [shapeCast_1ab_ab_apply, shapeCast_self]

/-- The relation one-hot product reads the selected row of the [51, 256] table. -/
theorem pay5_apply (x1 : Vec Ideal S1x1x4000 .i32) (x3 : Vec Ideal S51x256 .f32) (rl : Fin 4000 → Fin 51)
    (h1 : ∀ r : Fin 4000, x1 (ix3 (0 : Fin 1) (0 : Fin 1) r) = BitVec.ofNat 32 (rl r).val) (r : Fin 4000) (c : Fin 256) :
    k0_pay5 (F := Ideal) x1 x3 (ix2 r c) = x3 (ix2 (rl r) c) := by
  unfold k0_pay5
  refine (oneHot_matmul_apply (by norm_num) dot_S51x4000_S51x256_S4000x256_0_0_1_1_n_n rfl rfl
    rel_lhs_0 rel_lhs_1 rel_rhs_0 rel_rhs_1 iota_S51x4000_d0_w32 broadcasts_S1x4000_S51x4000
    (shapeCast S1x4000 (shapeCast S1x1x4000 x1 shapeCasts_S1x1x4000_S1x1x4000) shapeCasts_S1x1x4000_S1x4000)
    natLt_1_32 bitsLt_bf16_f32 (truncf .bf16 (shapeCast S51x256 x3 shapeCasts_S51x256_S51x256) bitsLt_bf16_f32) rl
    (fun r => (idxRow_apply x1 r).trans (h1 r)) r c).trans ?_
  rw [truncf_apply, shapeCast_self]

theorem pay6_apply (x1 : Vec Ideal S1x1x4000 .i32) (x3 : Vec Ideal S51x256 .f32) (rl : Fin 4000 → Fin 51)
    (h1 : ∀ r : Fin 4000, x1 (ix3 (0 : Fin 1) (0 : Fin 1) r) = BitVec.ofNat 32 (rl r).val) (r : Fin 4000) (k : Fin 128) :
    k0_pay6 (F := Ideal) x1 x3 (ix2 r k) = x3 (ix2 (rl r) (⟨k.val, by omega⟩ : Fin 256)) := by
  unfold k0_pay6
  refine (slice2_axis1_apply 0 _ _ r k (⟨k.val, by omega⟩ : Fin 256) (Nat.zero_add _).symm).trans ?_
  exact pay5_apply x1 x3 rl h1 r _

/-- The query one-hot product reads the selected row of the [256, 128] table. -/
theorem qry_apply (x2 : Vec Ideal S1x1x4000 .i32) (x4 : Vec Ideal S256x128 .f32) (ql : Fin 4000 → Fin 256)
    (h2 : ∀ r : Fin 4000, x2 (ix3 (0 : Fin 1) (0 : Fin 1) r) = BitVec.ofNat 32 (ql r).val) (r : Fin 4000) (k : Fin 128) :
    matmul dot_S256x4000_S256x128_S4000x128_0_0_1_1_n_n none
        (truncf .bf16 (sitofp .f32 (extui 32 (cmpi .eq (iota .tc S256x4000 32 [0] iota_S256x4000_d0_w32)
          (broadcastTo S256x4000
            (shapeCast S1x4000 (shapeCast S1x1x4000 x2 shapeCasts_S1x1x4000_S1x1x4000) shapeCasts_S1x1x4000_S1x4000)
            broadcasts_S1x4000_S256x4000)) natLt_1_32) : FVec Ideal S256x4000 .f32) bitsLt_bf16_f32
          : FVec Ideal S256x4000 .bf16)
        (truncf .bf16 (shapeCast S256x128 x4 shapeCasts_S256x128_S256x128) bitsLt_bf16_f32 : FVec Ideal S256x128 .bf16)
        (constant (F := Ideal) S4000x128 .f32 0x00000000#32) (ix2 r k)
      = x4 (ix2 (ql r) k) := by
  refine (oneHot_matmul_apply (by norm_num) dot_S256x4000_S256x128_S4000x128_0_0_1_1_n_n rfl rfl
    qry_lhs_0 qry_lhs_1 qry_rhs_0 qry_rhs_1 iota_S256x4000_d0_w32 broadcasts_S1x4000_S256x4000
    (shapeCast S1x4000 (shapeCast S1x1x4000 x2 shapeCasts_S1x1x4000_S1x1x4000) shapeCasts_S1x1x4000_S1x4000)
    natLt_1_32 bitsLt_bf16_f32 (truncf .bf16 (shapeCast S256x128 x4 shapeCasts_S256x128_S256x128) bitsLt_bf16_f32) ql
    (fun r => (idxRow_apply x2 r).trans (h2 r)) r k).trans ?_
  rw [truncf_apply, shapeCast_self]

/-- The source product: the source rows times the [128, 128] weight. -/
theorem src_apply (x0 : Vec Ideal S4000x128 .f32) (x5 : Vec Ideal S128x128 .f32) (r : Fin 4000) (k : Fin 128) :
    matmul dot_S4000x128_S128x128_S4000x128_1_0_0_1_n_n none
        (truncf .bf16 (k0_pay4 (F := Ideal) x0) bitsLt_bf16_f32 : FVec Ideal S4000x128 .bf16)
        (truncf .bf16 x5 bitsLt_bf16_f32 : FVec Ideal S128x128 .bf16)
        (constant (F := Ideal) S4000x128 .f32 0x00000000#32) (ix2 r k)
      = ∑ d : Fin 128, x0 (ix2 r d) * x5 (ix2 d k) := by
  rw [pay4_eq]
  refine (matmul_std_apply dot_S4000x128_S128x128_S4000x128_1_0_0_1_n_n rfl rfl
    src_lhs_0 src_lhs_1 src_rhs_0 src_rhs_1 _ _ r k).trans ?_
  rfl

theorem pay7_apply (x0 : Vec Ideal S4000x128 .f32) (x1 x2 : Vec Ideal S1x1x4000 .i32) (x3 : Vec Ideal S51x256 .f32) (x4 : Vec Ideal S256x128 .f32)
    (x5 : Vec Ideal S128x128 .f32) (x6 : Vec Ideal S1x128 .f32) (rl : Fin 4000 → Fin 51) (ql : Fin 4000 → Fin 256)
    (h1 : ∀ r : Fin 4000, x1 (ix3 (0 : Fin 1) (0 : Fin 1) r) = BitVec.ofNat 32 (rl r).val)
    (h2 : ∀ r : Fin 4000, x2 (ix3 (0 : Fin 1) (0 : Fin 1) r) = BitVec.ofNat 32 (ql r).val) (r : Fin 4000) (k : Fin 128) :
    k0_pay7 (F := Ideal) x0 x1 x2 x3 x4 x5 x6 (ix2 r k)
      = (((∑ d : Fin 128, x0 (ix2 r d) * x5 (ix2 d k)) + x3 (ix2 (rl r) (⟨128 + k.val, by omega⟩ : Fin 256))) + x4 (ix2 (ql r) k)) + x6 (ix2 (0 : Fin 1) k) := by
  unfold k0_pay7
  show addf (addf (addf _ _) _) _ (ix2 r k) = _
  rw [addf_apply, addf_apply, addf_apply]
  refine congrArg₂ (· + ·) (congrArg₂ (· + ·) (congrArg₂ (· + ·) ?_ ?_) ?_) ?_
  · exact src_apply x0 x5 r k
  · refine (slice2_axis1_apply 128 _ _ r k (⟨128 + k.val, by omega⟩ : Fin 256) rfl).trans ?_
    exact pay5_apply x1 x3 rl h1 r _
  · exact qry_apply x2 x4 ql h2 r k
  · rw [broadcastTo_1b_ab_apply, shapeCast_self]

end Cert.KernelIdeal.KBody

end
-- ==== Proof.LibColBroadcast.lean ====
/-
  A column broadcast over many columns, read at an index (the companion of the library's one-row form
  `broadcastTo_1b_ab_apply`), and a compare of two small naturals as 32-bit words.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two naturals below 2³² differ as 32-bit words exactly when they differ. -/
theorem cmpi_ne_ofNat (a b : ℕ) (ha : a < 2 ^ 32) (hb : b < 2 ^ 32) :
    IntOp.cmpi .ne (BitVec.ofNat 32 a) (BitVec.ofNat 32 b) = if a = b then 0#1 else 1#1 := by
  unfold IntOp.cmpi
  by_cases h : a = b
  · rw [if_pos h, h]; simp
  · rw [if_neg h]
    have hb' : (BitVec.ofNat 32 a != BitVec.ofNat 32 b) = true := by
      rw [bne_iff_ne]
      intro e
      have := congrArg BitVec.toNat e
      simp only [BitVec.toNat_ofNat] at this
      rw [Nat.mod_eq_of_lt ha, Nat.mod_eq_of_lt hb] at this
      exact h this
    simp [hb']

end Idealize.ShloMosaic.ValueIdx
-- ==== Proof.KBodyB.lean ====
/-
  Three values of the kernel body read at an index: the attention weight of a row (the logistic of the projected
  rectified pre-activation plus the bias), its copy laid out along the lanes, and the message of a row after the
  last linear map.
-/
import proofs.«417665_j34840774705589_3_alg».proof.Proof.Gen.KernelIdeal.Skeleton
import proofs.«417665_j34840774705589_3_alg».proof.Proof.LibColBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Idealize.ShloMosaic Idealize.ShloMosaic.ValueIdx Cert.KernelIdeal Cert.KernelIdeal.Gen

/-! ## The two products' operand indices, axis by axis -/

theorem lhs_proj_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs_proj_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs_proj_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs_proj_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The projection product into the zero accumulator, at row `r`: the sum over the 128 features. -/
theorem matmul_proj_apply (a : FVec Ideal S4000x128 .bf16) (b : FVec Ideal S128x1 .bf16) (r : Fin 4000) :
    matmul dot_S4000x128_S128x1_S4000x1_1_0_0_1_n_n none a b (constant S4000x1 .f32 0x00000000#32) (ix2 r (0 : Fin 1))
      = ∑ k : Fin 128, a (ix2 r k) * b (ix2 k (0 : Fin 1)) := by
  simp only [matmul]
  rw [Ideal.matmul_constant_zero_apply, ← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 r (0 : Fin 1)) ((contrEquiv1 dot_S4000x128_S128x1_S4000x1_1_0_0_1_n_n 128 rfl rfl).symm k) = ix2 r k := funext fun a => Fin.ext (by
    match a with
    | ⟨0, _⟩ => exact lhs_proj_0 _ _
    | ⟨1, _⟩ => exact (lhs_proj_1 _ _).trans hk)
  have er : dot_S4000x128_S128x1_S4000x1_1_0_0_1_n_n.rhsIdx (ix2 r (0 : Fin 1)) ((contrEquiv1 dot_S4000x128_S128x1_S4000x1_1_0_0_1_n_n 128 rfl rfl).symm k) = ix2 k (0 : Fin 1) := funext fun a => Fin.ext (by
    match a with
    | ⟨0, _⟩ => exact (rhs_proj_0 _ _).trans hk
    | ⟨1, _⟩ => exact rhs_proj_1 _ _)
  rw [el, er]

theorem lhs_out_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_out_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_out_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_out_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The last linear map's product into the zero accumulator, at row `r` and feature `j`: the sum over the 128
    features. -/
theorem matmul_out_apply (a : FVec Ideal S4000x128 .bf16) (b : FVec Ideal S128x128 .bf16) (r : Fin 4000) (j : Fin 128) :
    matmul dot_S4000x128_S128x128_S4000x128_1_0_0_1_n_n none a b (constant S4000x128 .f32 0x00000000#32) (ix2 r j)
      = ∑ k : Fin 128, a (ix2 r k) * b (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j := funext fun a => Fin.ext (by
    match a with
    | ⟨0, _⟩ => exact (rhs_out_0 _ _).trans hk
    | ⟨1, _⟩ => exact rhs_out_1 _ _)
  rw [el, er]

/-- The attention weight of row `r`: the logistic of the sum over the 128 features of the rectified
    pre-activation times the projection column, plus the bias. -/
theorem pay1_apply (v39 : FVec Ideal S4000x128 .f32) (x7 : Vec Ideal S128x1 .f32) (x8 : Vec Ideal S1x1 .f32) (r : Fin 4000) :
    k0_pay1 (F := Ideal) v39 x7 x8 (ix2 r (0 : Fin 1))
      = Ideal.logistic ((∑ k : Fin 128, max (v39 (ix2 r k)) 0 * x7 (ix2 k (0 : Fin 1))) + x8 (ix2 (0 : Fin 1) (0 : Fin 1))) := by
  unfold k0_pay1
  refine congrArg Ideal.logistic ?_
  refine congrArg₂ (· + ·) ?_ ?_
  · refine (matmul_proj_apply _ _ r).trans ?_
    refine Finset.sum_congr rfl fun k _ => ?_
    show max (v39 (ix2 r k)) (Ideal.ofBits .f32 0x00000000#32) * x7 (ix2 k (0 : Fin 1)) = _
    rw [Ideal.ofBits_zero_f32]
  · rw [shapeCast_self]
    refine broadcastTo_apply x8 _ (ix2 r (0 : Fin 1)) (ix2 (0 : Fin 1) (0 : Fin 1)) fun ax => ?_
    match ax with
    | ⟨0, _⟩ => rfl
    | ⟨1, _⟩ => rfl

/-- The lane layout of the attention weights holds, at lane `r`, the weight of row `r`. -/
theorem pay3_apply (v39 : FVec Ideal S4000x128 .f32) (x7 : Vec Ideal S128x1 .f32) (x8 : Vec Ideal S1x1 .f32) (r : Fin 4000) :
    k0_pay3 (F := Ideal) v39 x7 x8 (ix3 (0 : Fin 1) (0 : Fin 1) r) = k0_pay1 (F := Ideal) v39 x7 x8 (ix2 r (0 : Fin 1)) := by
  unfold k0_pay3
  generalize k0_pay1 (F := Ideal) v39 x7 x8 = w
  have hcast : (S1x4000.rowMajor (ix2 (0 : Fin 1) r)).val = (S1x1x4000.rowMajor (ix3 (0 : Fin 1) (0 : Fin 1) r)).val := by
    rw [Shape.rowMajor_val_two, Shape.rowMajor_val_three]
    show (0 : ℕ) * 4000 + r.val = ((0 : ℕ) * 1 + 0) * 4000 + r.val
    omega
  refine (shapeCast_apply _ _ (ix3 (0 : Fin 1) (0 : Fin 1) r) (ix2 (0 : Fin 1) r) hcast).trans ?_
  refine transpose_apply _ w _ (ix2 (0 : Fin 1) r) (ix2 r (0 : Fin 1)) fun b => ?_
  match b with
  | ⟨0, _⟩ => rfl
  | ⟨1, _⟩ => rfl

/-- The message of row `r` after the last linear map, at feature `j`: the sum over the 128 features of the
    weighted sum of the two embeddings times the map's entry. -/
theorem pay2_apply (v1 v27 v39 : FVec Ideal S4000x128 .f32) (x7 : Vec Ideal S128x1 .f32) (x8 : Vec Ideal S1x1 .f32) (x9 : Vec Ideal S128x128 .f32) (r : Fin 4000) (j : Fin 128) :
    k0_pay2 (F := Ideal) v1 v27 v39 x7 x8 x9 (ix2 r j)
      = ∑ k : Fin 128, (k0_pay1 (F := Ideal) v39 x7 x8 (ix2 r (0 : Fin 1)) * (v1 (ix2 r k) + v27 (ix2 r k))) * x9 (ix2 k j) := by
  unfold k0_pay2
  generalize k0_pay1 (F := Ideal) v39 x7 x8 = w
  refine (matmul_out_apply _ _ r j).trans ?_
  refine Finset.sum_congr rfl fun k _ => ?_
  show broadcastTo S4000x128 w _ (ix2 r k) * (v1 (ix2 r k) + v27 (ix2 r k)) * x9 (ix2 k j) = _
  rw [broadcastTo_a1_ab_apply w _ r k]

end Cert.KernelIdeal.KBody

end
-- ==== Proof.KFinal.lean ====
/-
  What the kernel's two output arrays hold after the region: the attention weight of every edge, block by block of
  4000 edges, and every edge's message after Wh, as functions of the argument arrays.
-/
import proofs.«417665_j34840774705589_3_alg».proof.Proof.Gen.KernelIdeal.Frame
import proofs.«417665_j34840774705589_3_alg».proof.Proof.KArgs
import proofs.«417665_j34840774705589_3_alg».proof.Proof.KBodyA
import proofs.«417665_j34840774705589_3_alg».proof.Proof.KBodyB
import proofs.«417665_j34840774705589_3_alg».proof.Proof.KHost
import Idealize.ShloMosaic.Lib.ValueIdx
import Idealize.ShloMosaic.Lib.Pipeline.Value

set_option maxRecDepth 16384

noncomputable section

namespace Cert.KernelIdeal.KFinal

open Idealize.ShloMosaic Idealize.ShloMosaic.ValueIdx Idealize.ShloMosaic.TcCoe Idealize.ShloMosaic.RowGather
open Cert.KernelIdeal Cert.KernelIdeal.Gen Cert.KernelIdeal.KBody Cert.KernelIdeal.KHost
open Idealize.SL.Sem
open Idealize.ShloMosaic.Pipeline (Dat)

/-! ## Words that are rows of a table -/

/-- A signed word inside a table's range is the word of its clamped row. -/
theorem word_eq_clampRow (N : Nat) (hN : 0 < N) (w : BitVec 32) (h0 : 0 ≤ w.toInt) (h1 : w.toInt < (N : ℤ)) :
    w = BitVec.ofNat 32 (clampRow N hN w).val := by
  have hv : (clampRow N hN w).val = w.toNat := by
    show min w.toInt.toNat (N - 1) = w.toNat
    have hi : w.toInt = (w.toNat : ℤ) := by
      rw [BitVec.toInt_eq_toNat_cond] at h0 ⊢
      split_ifs at h0 ⊢ with h
      · rfl
      · exfalso; have := w.isLt; omega
    omega
  rw [hv, BitVec.ofNat_toNat, BitVec.setWidth_eq]

/-! ## What the body leaves at an index, over any blocks -/

theorem hz2 : (![0, 0] : Fin 2 → Nat) = fun _ => 0 := funext fun a => by fin_cases a <;> rfl
theorem hz3 : (![0, 0, 0] : Fin 3 → Nat) = fun _ => 0 := funext fun a => by fin_cases a <;> rfl

section Point

variable (x0 : Vec Ideal S4000x128 .f32) (x1 x2 : Vec Ideal S1x1x4000 .i32) (x3 : Vec Ideal S51x256 .f32)
  (x4 : Vec Ideal S256x128 .f32) (x5 : Vec Ideal S128x128 .f32) (x6 : Vec Ideal S1x128 .f32)
  (x7 : Vec Ideal S128x1 .f32) (x8 : Vec Ideal S1x1 .f32) (x9 : Vec Ideal S128x128 .f32)

/-- Lane r of the attention block is the weight of row r. -/
theorem out10_apply (r : Fin 4000) :
    out0_10 (F := Ideal) x0 x1 x2 x3 x4 x5 x6 x7 x8 x9 (ix3 (0 : Fin 1) (0 : Fin 1) r)
      = k0_pay1 (F := Ideal) (k0_pay7 (F := Ideal) x0 x1 x2 x3 x4 x5 x6) x7 x8 (ix2 r (0 : Fin 1)) := by
  unfold out0_10
  rw [View.canon_unit_zero hz3]
  simp only [View.ld_unit_zero (S := S4000x128) hz2, View.ld_unit_zero (S := S1x1x4000) hz3,
    View.ld_unit_zero (S := S51x256) hz2, View.ld_unit_zero (S := S256x128) hz2, View.ld_unit_zero (S := S128x128) hz2,
    View.ld_unit_zero (S := S1x128) hz2, View.ld_unit_zero (S := S128x1) hz2, View.ld_unit_zero (S := S1x1) hz2]
  exact pay3_apply _ x7 x8 r

/-- Entry (r, j) of the message block. -/
theorem out11_apply (r : Fin 4000) (j : Fin 128) :
    out0_11 (F := Ideal) x0 x1 x2 x3 x4 x5 x6 x7 x8 x9 (ix2 r j)
      = k0_pay2 (F := Ideal) (k0_pay4 (F := Ideal) x0) (k0_pay6 (F := Ideal) x1 x3) (k0_pay7 (F := Ideal) x0 x1 x2 x3 x4 x5 x6) x7 x8 x9 (ix2 r j) := by
  unfold out0_11
  rw [View.canon_unit_zero hz2]
  simp only [View.ld_unit_zero (S := S4000x128) hz2, View.ld_unit_zero (S := S1x1x4000) hz3,
    View.ld_unit_zero (S := S51x256) hz2, View.ld_unit_zero (S := S256x128) hz2, View.ld_unit_zero (S := S128x128) hz2,
    View.ld_unit_zero (S := S1x128) hz2, View.ld_unit_zero (S := S128x1) hz2, View.ld_unit_zero (S := S1x1) hz2]

variable (A : Cert.Spec.Args) (e : Fin 400000) (rl : Fin 4000 → Fin 51) (ql : Fin 4000 → Fin 256)

/-- The weight of row r is the attention weight of edge e, once the blocks hold edge e's rows of the tables. -/
theorem alpha_of_blocks
    (h1 : ∀ r : Fin 4000, x1 (ix3 (0 : Fin 1) (0 : Fin 1) r) = BitVec.ofNat 32 (rl r).val)
    (h2 : ∀ r : Fin 4000, x2 (ix3 (0 : Fin 1) (0 : Fin 1) r) = BitVec.ofNat 32 (ql r).val) (r : Fin 4000)
    (hx0 : ∀ d : Fin 128, x0 (ix2 r d) = A.hs e d)
    (hhi : ∀ k : Fin 128, x3 (ix2 (rl r) (⟨128 + k.val, by omega⟩ : Fin 256)) = ∑ d : Fin 128, A.hr e d * A.Wr (ix2 d k))
    (hx4 : ∀ k : Fin 128, x4 (ix2 (ql r) k) = ∑ d : Fin 128, A.hq e d * A.Wq (ix2 d k))
    (hx5 : ∀ d k : Fin 128, x5 (ix2 d k) = A.Ws (ix2 d k))
    (hx6 : ∀ k : Fin 128, x6 (ix2 (0 : Fin 1) k) = A.b (ix1 k))
    (hx7 : ∀ k : Fin 128, x7 (ix2 k (0 : Fin 1)) = A.wa (ix2 k (0 : Fin 1)))
    (hx8 : x8 (ix2 (0 : Fin 1) (0 : Fin 1)) = A.wb (ix1 (0 : Fin 1))) :
    k0_pay1 (F := Ideal) (k0_pay7 (F := Ideal) x0 x1 x2 x3 x4 x5 x6) x7 x8 (ix2 r (0 : Fin 1)) = A.alpha e := by
  refine (pay1_apply _ x7 x8 r).trans ?_
  unfold Cert.Spec.Args.alpha Cert.Spec.Args.logit
  refine congrArg Ideal.logistic ?_
  rw [hx8]
  refine congrArg (· + A.wb (ix1 (0 : Fin 1))) ?_
  refine Finset.sum_congr rfl fun k _ => ?_
  rw [hx7 k, pay7_apply x0 x1 x2 x3 x4 x5 x6 rl ql h1 h2 r k, hhi k, hx4 k, hx6 k]
  unfold Cert.Spec.Args.preAct
  simp only [hx0, hx5]

/-- Entry (r, j) of the message block is edge e's message after Wh. -/
theorem msgWh_of_blocks
    (h1 : ∀ r : Fin 4000, x1 (ix3 (0 : Fin 1) (0 : Fin 1) r) = BitVec.ofNat 32 (rl r).val)
    (h2 : ∀ r : Fin 4000, x2 (ix3 (0 : Fin 1) (0 : Fin 1) r) = BitVec.ofNat 32 (ql r).val) (r : Fin 4000)
    (hx0 : ∀ d : Fin 128, x0 (ix2 r d) = A.hs e d)
    (hlo : ∀ k : Fin 128, x3 (ix2 (rl r) (⟨k.val, by omega⟩ : Fin 256)) = A.hr e k)
    (hhi : ∀ k : Fin 128, x3 (ix2 (rl r) (⟨128 + k.val, by omega⟩ : Fin 256)) = ∑ d : Fin 128, A.hr e d * A.Wr (ix2 d k))
    (hx4 : ∀ k : Fin 128, x4 (ix2 (ql r) k) = ∑ d : Fin 128, A.hq e d * A.Wq (ix2 d k))
    (hx5 : ∀ d k : Fin 128, x5 (ix2 d k) = A.Ws (ix2 d k))
    (hx6 : ∀ k : Fin 128, x6 (ix2 (0 : Fin 1) k) = A.b (ix1 k))
    (hx7 : ∀ k : Fin 128, x7 (ix2 k (0 : Fin 1)) = A.wa (ix2 k (0 : Fin 1)))
    (hx8 : x8 (ix2 (0 : Fin 1) (0 : Fin 1)) = A.wb (ix1 (0 : Fin 1)))
    (hx9 : ∀ k j : Fin 128, x9 (ix2 k j) = A.Wh (ix2 k j)) (j : Fin 128) :
    k0_pay2 (F := Ideal) (k0_pay4 (F := Ideal) x0) (k0_pay6 (F := Ideal) x1 x3) (k0_pay7 (F := Ideal) x0 x1 x2 x3 x4 x5 x6) x7 x8 x9 (ix2 r j)
      = A.msgWh e j := by
  refine (pay2_apply _ _ _ x7 x8 x9 r j).trans ?_
  rw [alpha_of_blocks x0 x1 x2 x3 x4 x5 x6 x7 x8 A e rl ql h1 h2 r hx0 hhi hx4 hx5 hx6 hx7 hx8]
  unfold Cert.Spec.Args.msgWh Cert.Spec.Args.msg
  refine Finset.sum_congr rfl fun k _ => ?_
  rw [pay4_eq x0, pay6_apply x1 x3 rl h1 r k, hx0 k, hlo k, hx9 k j]

end Point

/-! ## The input blocks at an index -/

variable (m : (ℓ : Loc nD τ sig) → Buf (Elt Ideal) ℓ) (c : Dev nD)

/-- The edge that row r of block t is. -/
def edgeOf (t : Fin cfg0.N) (r : Fin 4000) : Fin 400000 :=
  ⟨4000 * t.val + r.val, by have := t.isLt; have hN : cfg0.N = 100 := N_0; omega⟩

/-- Block t as a first coordinate of the [100, 1, 4000] arrays. -/
def blkOf (t : Fin cfg0.N) : Fin 100 := ⟨t.val, by have := t.isLt; have hN : cfg0.N = 100 := N_0; omega⟩

/-- The three blocked inputs and the two outputs move with the grid point on their first axis; the tables stay. -/
theorem idx_moving : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_10.index t (0 : Fin 3) = t.val ∧ win0_10.index t (1 : Fin 3) = 0 ∧ win0_10.index t (2 : Fin 3) = 0
    ∧ win0_11.index t (0 : Fin 2) = t.val ∧ win0_11.index t (1 : Fin 2) = 0 :=
  (by decide +kernel : ∀ t : Fin grid0.N, _)

theorem idx_tables : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row r of the source-embedding block at point t is row 4000 t + r of the gathered source embeddings. -/
theorem iblk0_apply (t : Fin cfg0.N) (r : Fin 4000) (d : Fin 128) :
    (iblk m c 0 t : Vec Ideal S4000x128 .f32) (ix2 r d) = (V m c main_v17 : S400000x128.Idx → EReal) (ix2 (edgeOf t r) d) := by
  obtain ⟨h0, h1, -⟩ := idx_moving t
  unfold iblk
  rw [View.read_apply]
  show V m c main_v17 _ = V m c main_v17 _
  congr 1
  funext a
  apply Fin.ext
  match a with
  | ⟨0, _⟩ => show win0_0.index t (0 : Fin 2) * 4000 + 1 * r.val = 4000 * t.val + r.val; rw [h0]; omega
  | ⟨1, _⟩ => show win0_0.index t (1 : Fin 2) * 128 + 1 * d.val = d.val; rw [h1]; omega

/-- Lane r of the relation block at point t is entry (t, 0, r) of the relation words. -/
theorem iblk1_apply (t : Fin cfg0.N) (r : Fin 4000) :
    (iblk m c 1 t : Vec Ideal S1x1x4000 .i32) (ix3 (0 : Fin 1) (0 : Fin 1) r)
      = (V m c main_v22 : IVec S100x1x4000 32) (ix3 (blkOf t) (0 : Fin 1) r) := by
  obtain ⟨-, -, h0, h1, h2, -⟩ := idx_moving t
  unfold iblk
  rw [View.read_apply]
  show V m c main_v22 _ = V m c main_v22 _
  congr 1
  funext a
  apply Fin.ext
  match a with
  | ⟨0, _⟩ => show win0_1.index t (0 : Fin 3) * 1 + 1 * 0 = t.val; rw [h0]; omega
  | ⟨1, _⟩ => show win0_1.index t (1 : Fin 3) * 1 + 1 * 0 = 0; rw [h1]
  | ⟨2, _⟩ => show win0_1.index t (2 : Fin 3) * 4000 + 1 * r.val = r.val; rw [h2]; omega

/-- Lane r of the query block at point t is entry (t, 0, r) of the query words. -/
theorem iblk2_apply (t : Fin cfg0.N) (r : Fin 4000) :
    (iblk m c 2 t : Vec Ideal S1x1x4000 .i32) (ix3 (0 : Fin 1) (0 : Fin 1) r)
      = (V m c main_v23 : IVec S100x1x4000 32) (ix3 (blkOf t) (0 : Fin 1) r) := by
  obtain ⟨-, -, -, -, -, h0, h1, h2, -⟩ := idx_moving t
  unfold iblk
  rw [View.read_apply]
  show V m c main_v23 _ = V m c main_v23 _
  congr 1
  funext a
  apply Fin.ext
  match a with
  | ⟨0, _⟩ => show win0_2.index t (0 : Fin 3) * 1 + 1 * 0 = t.val; rw [h0]; omega
  | ⟨1, _⟩ => show win0_2.index t (1 : Fin 3) * 1 + 1 * 0 = 0; rw [h1]
  | ⟨2, _⟩ => show win0_2.index t (2 : Fin 3) * 4000 + 1 * r.val = r.val; rw [h2]; omega

/-- The seven tables' blocks are the whole tables at every point. -/
theorem iblk3_eq (t : Fin cfg0.N) : (iblk m c 3 t : Vec Ideal S51x256 .f32) = V m c main_v21 := by
  obtain ⟨h0, h1, -⟩ := idx_tables t
  funext y
  unfold iblk
  rw [View.read_apply]
  show V m c main_v21 _ = V m c main_v21 _
  congr 1
  funext a
  apply Fin.ext
  match a with
  | ⟨0, _⟩ => show win0_3.index t (0 : Fin 2) * 51 + 1 * (y 0).val = (y 0).val; rw [h0]; omega
  | ⟨1, _⟩ => show win0_3.index t (1 : Fin 2) * 256 + 1 * (y 1).val = (y 1).val; rw [h1]; omega

theorem iblk4_eq (t : Fin cfg0.N) : (iblk m c 4 t : Vec Ideal S256x128 .f32) = V m c main_v19 := by
  obtain ⟨-, -, h0, h1, -⟩ := idx_tables t
  funext y
  unfold iblk
  rw [View.read_apply]
  show V m c main_v19 _ = V m c main_v19 _
  congr 1
  funext a
  apply Fin.ext
  match a with
  | ⟨0, _⟩ => show win0_4.index t (0 : Fin 2) * 256 + 1 * (y 0).val = (y 0).val; rw [h0]; omega
  | ⟨1, _⟩ => show win0_4.index t (1 : Fin 2) * 128 + 1 * (y 1).val = (y 1).val; rw [h1]; omega

theorem iblk5_eq (t : Fin cfg0.N) : (iblk m c 5 t : Vec Ideal S128x128 .f32) = V m c main_arg6 := by
  obtain ⟨-, -, -, -, h0, h1, -⟩ := idx_tables t
  funext y
  unfold iblk
  rw [View.read_apply]
  show V m c main_arg6 _ = V m c main_arg6 _
  congr 1
  funext a
  apply Fin.ext
  match a with
  | ⟨0, _⟩ => show win0_5.index t (0 : Fin 2) * 128 + 1 * (y 0).val = (y 0).val; rw [h0]; omega
  | ⟨1, _⟩ => show win0_5.index t (1 : Fin 2) * 128 + 1 * (y 1).val = (y 1).val; rw [h1]; omega

theorem iblk6_eq (t : Fin cfg0.N) : (iblk m c 6 t : Vec Ideal S1x128 .f32) = V m c main_v24 := by
  obtain ⟨-, -, -, -, -, -, h0, h1, -⟩ := idx_tables t
  funext y
  unfold iblk
  rw [View.read_apply]
  show V m c main_v24 _ = V m c main_v24 _
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 128 + 1 * (y 1).val = (y 1).val; rw [h1]; omega

theorem iblk7_eq (t : Fin cfg0.N) : (iblk m c 7 t : Vec Ideal S128x1 .f32) = V m c main_arg10 := by
  obtain ⟨-, -, -, -, -, -, -, -, h0, h1, -⟩ := idx_tables t
  funext y
  unfold iblk
  rw [View.read_apply]
  show V m c main_arg10 _ = V m c main_arg10 _
  congr 1
  funext a
  apply Fin.ext
  match a with
  | ⟨0, _⟩ => show win0_7.index t (0 : Fin 2) * 128 + 1 * (y 0).val = (y 0).val; rw [h0]; omega
  | ⟨1, _⟩ => show win0_7.index t (1 : Fin 2) * 1 + 1 * (y 1).val = (y 1).val; rw [h1]; omega

theorem iblk8_eq (t : Fin cfg0.N) : (iblk m c 8 t : Vec Ideal S1x1 .f32) = V m c main_v25 := by
  obtain ⟨-, -, -, -, -, -, -, -, -, -, h0, h1, -⟩ := idx_tables t
  funext y
  unfold iblk
  rw [View.read_apply]
  show V m c main_v25 _ = V m c main_v25 _
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 1 + 1 * (y 1).val = (y 1).val; rw [h1]; omega

theorem iblk9_eq (t : Fin cfg0.N) : (iblk m c 9 t : Vec Ideal S128x128 .f32) = V m c main_arg12 := by
  obtain ⟨-, -, -, -, -, -, -, -, -, -, -, -, h0, h1⟩ := idx_tables t
  funext y
  unfold iblk
  rw [View.read_apply]
  show V m c main_arg12 _ = V m c main_arg12 _
  congr 1
  funext a
  apply Fin.ext
  match a with
  | ⟨0, _⟩ => show win0_9.index t (0 : Fin 2) * 128 + 1 * (y 0).val = (y 0).val; rw [h0]; omega
  | ⟨1, _⟩ => show win0_9.index t (1 : Fin 2) * 128 + 1 * (y 1).val = (y 1).val; rw [h1]; omega

/-! ## The blocks at a point hold the edges' rows of the tables -/

/-- Lane r of the relation block is the word of edge 4000 t + r's relation row. -/
theorem rel_words (hok : Cert.Spec.IdxOK (args m c)) (t : Fin cfg0.N) (r : Fin 4000) :
    (iblk m c 1 t : Vec Ideal S1x1x4000 .i32) (ix3 (0 : Fin 1) (0 : Fin 1) r)
      = BitVec.ofNat 32 ((args m c).relRow (edgeOf t r)).val := by
  refine (iblk1_apply m c t r).trans ?_
  refine (V22_apply m c (blkOf t) r).trans ?_
  exact word_eq_clampRow 51 (by decide) _ (hok.rel_lo (edgeOf t r)) (hok.rel_hi (edgeOf t r))

/-- Lane r of the query block is the word of edge 4000 t + r's query row. -/
theorem q_words (hok : Cert.Spec.IdxOK (args m c)) (t : Fin cfg0.N) (r : Fin 4000) :
    (iblk m c 2 t : Vec Ideal S1x1x4000 .i32) (ix3 (0 : Fin 1) (0 : Fin 1) r)
      = BitVec.ofNat 32 ((args m c).qRow (edgeOf t r)).val := by
  refine (iblk2_apply m c t r).trans ?_
  refine (V23_apply m c (blkOf t) r).trans ?_
  exact word_eq_clampRow 256 (by decide) _ (hok.q_lo (edgeOf t r)) (hok.q_hi (edgeOf t r))

theorem blk_hs (t : Fin cfg0.N) (r : Fin 4000) (d : Fin 128) :
    (iblk m c 0 t : Vec Ideal S4000x128 .f32) (ix2 r d) = (args m c).hs (edgeOf t r) d :=
  (iblk0_apply m c t r d).trans (V17_apply m c (edgeOf t r) d)

theorem blk_hr (t : Fin cfg0.N) (r : Fin 4000) (k : Fin 128) :
    (iblk m c 3 t : Vec Ideal S51x256 .f32) (ix2 ((args m c).relRow (edgeOf t r)) (⟨k.val, by omega⟩ : Fin 256))
      = (args m c).hr (edgeOf t r) k :=
  (congrFun (iblk3_eq m c t) _).trans (V21_lo m c ((args m c).relRow (edgeOf t r)) k)

theorem blk_hrWr (t : Fin cfg0.N) (r : Fin 4000) (k : Fin 128) :
    (iblk m c 3 t : Vec Ideal S51x256 .f32) (ix2 ((args m c).relRow (edgeOf t r)) (⟨128 + k.val, by omega⟩ : Fin 256))
      = ∑ d : Fin 128, (args m c).hr (edgeOf t r) d * (args m c).Wr (ix2 d k) :=
  (congrFun (iblk3_eq m c t) _).trans (V21_hi m c ((args m c).relRow (edgeOf t r)) k)

theorem blk_hqWq (t : Fin cfg0.N) (r : Fin 4000) (k : Fin 128) :
    (iblk m c 4 t : Vec Ideal S256x128 .f32) (ix2 ((args m c).qRow (edgeOf t r)) k)
      = ∑ d : Fin 128, (args m c).hq (edgeOf t r) d * (args m c).Wq (ix2 d k) :=
  (congrFun (iblk4_eq m c t) _).trans (V19_apply m c ((args m c).qRow (edgeOf t r)) k)

theorem blk_Ws (t : Fin cfg0.N) (d k : Fin 128) :
    (iblk m c 5 t : Vec Ideal S128x128 .f32) (ix2 d k) = (args m c).Ws (ix2 d k) :=
  (congrFun (iblk5_eq m c t) _).trans (congrFun (V_main_arg6 m c) _)

theorem blk_b (t : Fin cfg0.N) (k : Fin 128) :
    (iblk m c 6 t : Vec Ideal S1x128 .f32) (ix2 (0 : Fin 1) k) = (args m c).b (ix1 k) :=
  (congrFun (iblk6_eq m c t) _).trans (V24_apply m c k)

theorem blk_wa (t : Fin cfg0.N) (k : Fin 128) :
    (iblk m c 7 t : Vec Ideal S128x1 .f32) (ix2 k (0 : Fin 1)) = (args m c).wa (ix2 k (0 : Fin 1)) :=
  (congrFun (iblk7_eq m c t) _).trans (congrFun (V_main_arg10 m c) _)

theorem blk_wb (t : Fin cfg0.N) :
    (iblk m c 8 t : Vec Ideal S1x1 .f32) (ix2 (0 : Fin 1) (0 : Fin 1)) = (args m c).wb (ix1 (0 : Fin 1)) :=
  (congrFun (iblk8_eq m c t) _).trans (V25_apply m c)

theorem blk_Wh (t : Fin cfg0.N) (k j : Fin 128) :
    (iblk m c 9 t : Vec Ideal S128x128 .f32) (ix2 k j) = (args m c).Wh (ix2 k j) :=
  (congrFun (iblk9_eq m c t) _).trans (congrFun (V_main_arg12 m c) _)

/-- Lane r of what point t leaves in the attention block is the attention weight of edge 4000 t + r. -/
theorem after10_apply (hok : Cert.Spec.IdxOK (args m c)) (t : Fin cfg0.N) (r : Fin 4000) :
    out0_10 (F := Ideal) (iblk m c 0 t) (iblk m c 1 t) (iblk m c 2 t) (iblk m c 3 t) (iblk m c 4 t) (iblk m c 5 t)
        (iblk m c 6 t) (iblk m c 7 t) (iblk m c 8 t) (iblk m c 9 t) (ix3 (0 : Fin 1) (0 : Fin 1) r)
      = (args m c).alpha (edgeOf t r) := by
  refine (out10_apply (iblk m c 0 t) (iblk m c 1 t) (iblk m c 2 t) (iblk m c 3 t) (iblk m c 4 t) (iblk m c 5 t)
    (iblk m c 6 t) (iblk m c 7 t) (iblk m c 8 t) (iblk m c 9 t) r).trans ?_
  exact alpha_of_blocks (iblk m c 0 t) (iblk m c 1 t) (iblk m c 2 t) (iblk m c 3 t) (iblk m c 4 t) (iblk m c 5 t)
    (iblk m c 6 t) (iblk m c 7 t) (iblk m c 8 t) (args m c) (edgeOf t r)
    (fun r' => (args m c).relRow (edgeOf t r')) (fun r' => (args m c).qRow (edgeOf t r'))
    (rel_words m c hok t) (q_words m c hok t) r (blk_hs m c t r) (blk_hrWr m c t r) (blk_hqWq m c t r)
    (blk_Ws m c t) (blk_b m c t) (blk_wa m c t) (blk_wb m c t)

/-- Entry (r, j) of what point t leaves in the message block is edge 4000 t + r's message after Wh. -/
theorem after11_apply (hok : Cert.Spec.IdxOK (args m c)) (t : Fin cfg0.N) (r : Fin 4000) (j : Fin 128) :
    out0_11 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 r j)
      = (args m c).msgWh (edgeOf t r) j := by
  refine (out11_apply (iblk m c 0 t) (iblk m c 1 t) (iblk m c 2 t) (iblk m c 3 t) (iblk m c 4 t) (iblk m c 5 t)
    (iblk m c 6 t) (iblk m c 7 t) (iblk m c 8 t) (iblk m c 9 t) r j).trans ?_
  exact msgWh_of_blocks (iblk m c 0 t) (iblk m c 1 t) (iblk m c 2 t) (iblk m c 3 t) (iblk m c 4 t) (iblk m c 5 t)
    (iblk m c 6 t) (iblk m c 7 t) (iblk m c 8 t) (iblk m c 9 t) (args m c) (edgeOf t r)
    (fun r' => (args m c).relRow (edgeOf t r')) (fun r' => (args m c).qRow (edgeOf t r'))
    (rel_words m c hok t) (q_words m c hok t) r (blk_hs m c t r) (blk_hr m c t r) (blk_hrWr m c t r) (blk_hqWq m c t r)
    (blk_Ws m c t) (blk_b m c t) (blk_wa m c t) (blk_wb m c t) (blk_Wh m c t) j

/-! ## From blocks to the arrays -/

/-- The attention weights as the [100, 1, 4000] array: entry (t, 0, r) is the weight of edge 4000 t + r. -/
def alphaBlocks : S100x1x4000.Idx → EReal := fun i =>
  (args m c).alpha ⟨4000 * (i 0).val + (i 2).val, by
    have h0 : (i 0).val < 100 := (i 0).isLt
    have h2 : (i 2).val < 4000 := (i 2).isLt
    omega⟩

/-- The messages after Wh as the [400000, 128] array. -/
def msgWhArr : S400000x128.Idx → EReal := fun i =>
  (args m c).msgWh ⟨(i 0).val, idx2_lt0 i⟩ ⟨(i 1).val, idx2_lt1 i⟩

/-- What point t writes back to the attention array is block t of the attention weights. -/
theorem flushed10_eq (hok : Cert.Spec.IdxOK (args m c)) (t : Fin cfg0.N) :
    (dats m 0 c).flushed 10 t = ((cfg0.win 10).blk t).view.read (Elt Ideal) (alphaBlocks m c) := by
  show (cfg0.win 10).cut (grid0.coords t) ((dats m 0 c).after 10 t) = _
  rw [after0_10]
  funext y
  obtain ⟨a, b, r, hy⟩ : ∃ (a : Fin 1) (b : Fin 1) (r : Fin 4000), (y : S1x1x4000.Idx) = ix3 a b r :=
    ⟨y 0, y 1, y 2, eq_ix3 y⟩
  subst hy
  obtain rfl : a = 0 := Subsingleton.elim _ _
  obtain rfl : b = 0 := Subsingleton.elim _ _
  refine (after10_apply m c hok t r).trans ?_
  obtain ⟨-, -, -, -, -, -, -, -, h0, h1, h2, -⟩ := idx_moving t
  show (args m c).alpha _ = (args m c).alpha _
  congr 1
  apply Fin.ext
  show 4000 * t.val + r.val
    = 4000 * (win0_10.index t (0 : Fin 3) * 1 + 1 * 0) + (win0_10.index t (2 : Fin 3) * 4000 + 1 * r.val)
  rw [h0, h2]; omega

/-- What point t writes back to the message array is block t (rows 4000 t … 4000 t + 3999) of the messages after Wh. -/
theorem flushed11_eq (hok : Cert.Spec.IdxOK (args m c)) (t : Fin cfg0.N) :
    (dats m 0 c).flushed 11 t = ((cfg0.win 11).blk t).view.read (Elt Ideal) (msgWhArr m c) := by
  show (cfg0.win 11).cut (grid0.coords t) ((dats m 0 c).after 11 t) = _
  rw [after0_11]
  funext y
  obtain ⟨r, j, hy⟩ : ∃ (r : Fin 4000) (j : Fin 128), (y : S4000x128.Idx) = ix2 r j := ⟨y 0, y 1, eq_ix2 y⟩
  subst hy
  refine (after11_apply m c hok t r j).trans ?_
  obtain ⟨-, -, -, -, -, -, -, -, -, -, -, h0, h1⟩ := idx_moving t
  show (args m c).msgWh _ _ = (args m c).msgWh _ _
  congr 1
  · apply Fin.ext
    show 4000 * t.val + r.val = win0_11.index t (0 : Fin 2) * 4000 + 1 * r.val
    rw [h0]; omega
  · apply Fin.ext
    show j.val = win0_11.index t (1 : Fin 2) * 128 + 1 * j.val
    rw [h1]; omega

/-- An index of the attention array is in point t's block iff each coordinate is in the block's range on its axis. -/
theorem mem_blk10 (t : Fin cfg0.N) (i : S100x1x4000.Idx) :
    i ∈ ((cfg0.win 10).blk t).view.set ↔ ∀ a : Fin 3, win0_10.index t a * S1x1x4000.size a ≤ (i a).val
      ∧ (i a).val < win0_10.index t a * S1x1x4000.size a + S1x1x4000.size a := by
  show i ∈ ((View.whole main_v26_0).slice (win0_10.rect t)).set ↔ _
  rw [View.set_slice_whole, Rect.mem_set_unit]
  exact Iff.rfl

/-- An index of the message array is in point t's block iff each coordinate is in the block's range on its axis. -/
theorem mem_blk11 (t : Fin cfg0.N) (i : S400000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v26_1).slice (win0_11.rect t)).set ↔ _
  rw [View.set_slice_whole, Rect.mem_set_unit]
  exact Iff.rfl

/-- Entry (t, 0, r) of the attention array is in point t's block. -/
theorem cover10 (i : S100x1x4000.Idx) :
    ∃ t : Fin cfg0.N, (cfg0.win 10).flush t = true ∧ i ∈ ((cfg0.win 10).blk t).view.set := by
  have hN : cfg0.N = 100 := N_0
  have hi0 : (i 0).val < 100 := (i 0).isLt
  have hi1 : (i 1).val < 1 := (i 1).isLt
  have hi2 : (i 2).val < 4000 := (i 2).isLt
  obtain ⟨t, ht⟩ : ∃ t : Fin cfg0.N, t.val = (i 0).val := ⟨⟨(i 0).val, by omega⟩, rfl⟩
  obtain ⟨-, -, -, -, -, -, -, -, h0, h1, h2, -⟩ := idx_moving t
  refine ⟨t, flush0_10 t, ?_⟩
  rw [mem_blk10]
  intro a
  match a with
  | ⟨0, _⟩ =>
    show win0_10.index t (0 : Fin 3) * 1 ≤ (i 0).val ∧ (i 0).val < win0_10.index t (0 : Fin 3) * 1 + 1
    rw [h0]; omega
  | ⟨1, _⟩ =>
    show win0_10.index t (1 : Fin 3) * 1 ≤ (i 1).val ∧ (i 1).val < win0_10.index t (1 : Fin 3) * 1 + 1
    rw [h1]; omega
  | ⟨2, _⟩ =>
    show win0_10.index t (2 : Fin 3) * 4000 ≤ (i 2).val ∧ (i 2).val < win0_10.index t (2 : Fin 3) * 4000 + 4000
    rw [h2]; omega

/-- Row e of the message array is in the block of point e / 4000. -/
theorem cover11 (i : S400000x128.Idx) :
    ∃ t : Fin cfg0.N, (cfg0.win 11).flush t = true ∧ i ∈ ((cfg0.win 11).blk t).view.set := by
  have hN : cfg0.N = 100 := N_0
  have hi0 : (i 0).val < 400000 := (i 0).isLt
  have hi1 : (i 1).val < 128 := (i 1).isLt
  obtain ⟨t, ht⟩ : ∃ t : Fin cfg0.N, t.val = (i 0).val / 4000 := ⟨⟨(i 0).val / 4000, by omega⟩, rfl⟩
  obtain ⟨-, -, -, -, -, -, -, -, -, -, -, h0, h1⟩ := idx_moving t
  refine ⟨t, flush0_11 t, ?_⟩
  rw [mem_blk11]
  intro a
  match a with
  | ⟨0, _⟩ =>
    show win0_11.index t (0 : Fin 2) * 4000 ≤ (i 0).val ∧ (i 0).val < win0_11.index t (0 : Fin 2) * 4000 + 4000
    rw [h0]; omega
  | ⟨1, _⟩ =>
    show win0_11.index t (1 : Fin 2) * 128 ≤ (i 1).val ∧ (i 1).val < win0_11.index t (1 : Fin 2) * 128 + 128
    rw [h1]; omega

/-- The attention array after the region is the attention weights. -/
theorem arr10_eq (hok : Cert.Spec.IdxOK (args m c)) : (dats m 0 c).arrAt 10 cfg0.N = alphaBlocks m c :=
  (dats m 0 c).arrAt_eq_of_cover 10 (alphaBlocks m c) (fun t _ => flushed10_eq m c hok t) cover10

/-- The message array after the region is the messages after Wh. -/
theorem arr11_eq (hok : Cert.Spec.IdxOK (args m c)) : (dats m 0 c).arrAt 11 cfg0.N = msgWhArr m c :=
  (dats m 0 c).arrAt_eq_of_cover 11 (msgWhArr m c) (fun t _ => flushed11_eq m c hok t) cover11

/-- The attention-weight array after the region: entry (t, 0, r) is the weight of edge 4000 t + r. -/
theorem final10 (hok : Cert.Spec.IdxOK (args m c)) (t : Fin 100) (r : Fin 4000) :
    ((dats m 0 c).arrAt 10 cfg0.N : S100x1x4000.Idx → EReal) (ix3 t (0 : Fin 1) r)
      = (args m c).alpha ⟨4000 * t.val + r.val, by omega⟩ :=
  (congrFun (arr10_eq m c hok) (ix3 t (0 : Fin 1) r)).trans rfl

/-- The message array after the region: row e is edge e's message after Wh. -/
theorem final11 (hok : Cert.Spec.IdxOK (args m c)) (e : Fin 400000) (j : Fin 128) :
    ((dats m 0 c).arrAt 11 cfg0.N : S400000x128.Idx → EReal) (ix2 e j) = (args m c).msgWh e j :=
  (congrFun (arr11_eq m c hok) (ix2 e j)).trans rfl

end Cert.KernelIdeal.KFinal

end
-- ==== Proof.LibScatterRows.lean ====
/-
  A row scatter with accumulation read at an index. A segment sum of n update rows [n, D] into N segments prints as a
  scatter whose operand is the [N, D] array to add into, whose scatter indices are the [n, 1] column of segment numbers,
  whose updates are the [n, D] rows, whose operand axis 0 is inserted and start-indexed and whose update axis 1 is the one
  window axis. Result element (p, q) is the operand at (p, q) plus the sum, over the update rows e whose segment number read
  as a signed integer is p, of the update at (e, q); a row whose segment number is outside [0, N − 1] lands nowhere.
-/
import Idealize.ShloMosaic.PureOps.Ideal
import Idealize.ShloMosaic.PureOps.Contract
import Idealize.ShloMosaic.Lib.ValueIdx

namespace Idealize.ShloMosaic.ScatterRows

open Idealize.ShloMosaic Idealize.ShloMosaic.ValueIdx

/-- A rank-2 index read on an axis whose number is 0 is its first coordinate. -/
theorem ix2_val_of_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_of_one {n0 n1 : Nat} (a : Fin n0) (b : Fin n1) (i : Fin 2) (hi : i.val = 1) : (ix2 a b i).val = b.val := by
  match i, hi with
  | ⟨1, _⟩, _ => rfl

section Landing

variable {N D n w : Nat} (d : ScatterDims ⟨2, ![N, D]⟩ ⟨2, ![n, 1]⟩ ⟨2, ![n, D]⟩)

/-- On operand axis 0 the window of update (e, q') starts at row e's segment number, read signed. -/
theorem start_zero (huw : d.updateWindowDims = [1]) (hsd : d.scatterDimsToOperandDims = [0]) (hiv : d.indexVectorDim = 1)
    (idx : IVec ⟨2, ![n, 1]⟩ w) (e : Fin n) (q' : Fin D) :
    d.start (ix2 e q') idx 0 = (idx (ix2 e (0 : Fin 1))).toInt := by
  have hm : (0 : Fin 2) ∈ d.scatterDimsToOperandDims := by rw [hsd]; exact List.mem_singleton.mpr rfl
  -- the updates' scatter axes are all axis 0
  have huS : ∀ a ∈ d.uScatter, a.val = 0 := by
    intro a ha
    have hna : a ∉ d.updateWindowDims := by
      have := (List.mem_filter.mp ha).2
      simpa using this
    rw [huw] at hna
    have h2 : a.val < 2 := a.isLt
    by_contra hne
    exact hna (List.mem_singleton.mpr (Fin.ext (by show a.val = 1; omega)))
  unfold ScatterDims.start
  rw [dif_pos hm]
  have hsi : d.siIdx (ix2 e q') ⟨d.scatterDimsToOperandDims.idxOf (0 : Fin 2), List.idxOf_lt_length_iff.2 hm⟩
      = ix2 e (0 : Fin 1) := by
    funext b
    apply Fin.ext
    match b with
    | ⟨0, _⟩ =>
      unfold ScatterDims.siIdx
      rw [dif_neg (by rw [hiv]; exact Nat.zero_ne_one)]
      unfold ScatterDims.siCoord
      simp only [Fin.val_cast]
      exact ix2_val_of_zero e q' _ (huS _ (List.getElem_mem _))
    | ⟨1, _⟩ =>
      unfold ScatterDims.siIdx
      rw [dif_pos (by rw [hiv])]
      show List.idxOf (0 : Fin 2) d.scatterDimsToOperandDims = 0
      rw [hsd]; simp
  rw [hsi]

/-- On operand axis 1, which the map does not name, the window starts at 0. -/
theorem start_one (hsd : d.scatterDimsToOperandDims = [0]) (idx : IVec ⟨2, ![n, 1]⟩ w) (j : (⟨2, ![n, D]⟩ : Shape).Idx) :
    d.start j idx 1 = 0 := by
  have hm : (1 : Fin 2) ∉ d.scatterDimsToOperandDims := by rw [hsd]; simp
  unfold ScatterDims.start
  rw [dif_neg hm]

/-- Operand axis 0 is inserted: its window coordinate is 0. -/
theorem window_zero (hiw : d.insertedWindowDims = [0]) (j : (⟨2, ![n, D]⟩ : Shape).Idx) : d.window j 0 = 0 := by
  have hk : (0 : Fin 2) ∉ d.sKept := by
    simp [ScatterDims.sKept, Shape.kept, List.mem_filter, hiw]
  unfold ScatterDims.window
  rw [dif_neg hk]

/-- Operand axis 1 is the one kept axis: its window coordinate is the update's second coordinate. -/
theorem window_one (huw : d.updateWindowDims = [1]) (hiw : d.insertedWindowDims = [0]) (e : Fin n) (q' : Fin D) :
    d.window (ix2 e q') 1 = q'.val := by
  have hk : (1 : Fin 2) ∈ d.sKept := by
    simp [ScatterDims.sKept, Shape.kept, List.mem_filter, List.mem_finRange, hiw]
  have huW : ∀ a ∈ d.updateWindowDims, a.val = 1 := by
    intro a ha; rw [huw] at ha; rw [List.mem_singleton.mp ha]; rfl
  unfold ScatterDims.window
  rw [dif_pos hk]
  exact ix2_val_of_one e q' _ (huW _ (List.getElem_mem _))

end Landing

section Landing

variable {N D n w : Nat} (d : ScatterDims ⟨2, ![N, D]⟩ ⟨2, ![n, 1]⟩ ⟨2, ![n, D]⟩)

/-- Update (e, q') lands at (p, q) exactly when row e's segment number, read signed, is p and q' is q. -/
theorem resultIdx?_eq_some_iff (huw : d.updateWindowDims = [1]) (hiw : d.insertedWindowDims = [0])
    (hsd : d.scatterDimsToOperandDims = [0]) (hiv : d.indexVectorDim = 1)
    (idx : IVec ⟨2, ![n, 1]⟩ w) (e : Fin n) (q' : Fin D) (p : Fin N) (q : Fin D) :
    d.resultIdx? (ix2 e q') idx = some (ix2 p q) ↔ ((idx (ix2 e (0 : Fin 1))).toInt = (p.val : ℤ) ∧ q' = q) := by
  have h0 : d.start (ix2 e q') idx 0 + d.window (ix2 e q') 0 = (idx (ix2 e (0 : Fin 1))).toInt := by
    rw [start_zero d huw hsd hiv, window_zero d hiw]; simp
  have h1 : d.start (ix2 e q') idx 1 + d.window (ix2 e q') 1 = (q'.val : ℤ) := by
    rw [start_one d hsd, window_one d huw hiw]; simp
  unfold ScatterDims.resultIdx?
  constructor
  · intro h
    split at h
    · rename_i hr
      have hf := Option.some.inj h
      have e0 := congrArg Fin.val (congrFun hf 0)
      have e1 := congrArg Fin.val (congrFun hf 1)
      have hr0 := hr 0
      simp only [h0] at e0 hr0
      simp only [h1] at e1
      refine ⟨?_, Fin.ext ?_⟩
      · have : ((idx (ix2 e (0 : Fin 1))).toInt.toNat : ℤ) = (p.val : ℤ) := by exact_mod_cast e0
        omega
      · have : ((q'.val : ℤ).toNat) = q.val := e1
        omega
    · exact absurd h (by simp)
  · rintro ⟨hp, rfl⟩
    have hall : ∀ a, 0 ≤ d.start (ix2 e q') idx a + d.window (ix2 e q') a
        ∧ d.start (ix2 e q') idx a + d.window (ix2 e q') a < (⟨2, ![N, D]⟩ : Shape).size a := by
      intro a
      match a with
      | ⟨0, _⟩ =>
        show 0 ≤ d.start (ix2 e q') idx 0 + d.window (ix2 e q') 0
          ∧ d.start (ix2 e q') idx 0 + d.window (ix2 e q') 0 < (N : ℤ)
        rw [h0, hp]; have := p.isLt; omega
      | ⟨1, _⟩ =>
        show 0 ≤ d.start (ix2 e q') idx 1 + d.window (ix2 e q') 1
          ∧ d.start (ix2 e q') idx 1 + d.window (ix2 e q') 1 < (D : ℤ)
        rw [h1]; have := q'.isLt; omega
    rw [dif_pos hall]
    congr 1
    funext a
    apply Fin.ext
    match a with
    | ⟨0, _⟩ =>
      show (d.start (ix2 e q') idx 0 + d.window (ix2 e q') 0).toNat = p.val
      rw [h0, hp]; simp
    | ⟨1, _⟩ =>
      show (d.start (ix2 e q') idx 1 + d.window (ix2 e q') 1).toNat = q'.val
      rw [h1]; simp

end Landing

/-- THE ACCUMULATING ROW SCATTER AT (p, q): the operand at (p, q) plus the sum of the updates at (e, q) over the rows e
    whose segment number, read signed, is p. The four hypotheses are the printed dimension numbers, each by `rfl` at a
    program's record. -/
theorem scatterAdd_rows_apply {φ : FTy} {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![n, 1]⟩ w) (upd : (⟨2, ![n, D]⟩ : Shape).Idx → EReal)
    (p : Fin N) (q : Fin D) :
    Host.scatterAdd (F := Ideal) (φ := φ) d x idx upd (ix2 p q)
      = x (ix2 p q)
        + ∑ e ∈ Finset.univ.filter (fun e : Fin n => (idx (ix2 e (0 : Fin 1))).toInt = (p.val : ℤ)), upd (ix2 e q) := by
  show x (ix2 p q) + ∑ j ∈ Finset.univ.filter (fun j => d.resultIdx? j idx = some (ix2 p q)), upd j = _
  congr 1
  symm
  -- the rows e with segment number p, sent to the update indices (e, q), are exactly the updates landing at (p, q)
  apply Finset.sum_bij (fun e _ => ix2 e q)
  · intro e he
    rw [Finset.mem_filter] at he ⊢
    exact ⟨Finset.mem_univ _, (resultIdx?_eq_some_iff d huw hiw hsd hiv idx e q p q).2 ⟨he.2, rfl⟩⟩
  · intro a _ b _ hab
    exact congrFun hab 0
  · intro j hj
    obtain ⟨e, q', rfl⟩ : ∃ (e : Fin n) (q' : Fin D), j = ix2 e q' := ⟨_, _, eq_ix2 j⟩
    have hl := (resultIdx?_eq_some_iff d huw hiw hsd hiv idx e q' p q).1 (Finset.mem_filter.1 hj).2
    exact ⟨e, Finset.mem_filter.2 ⟨Finset.mem_univ _, hl.1⟩, by rw [hl.2]⟩
  · intro e _
    rfl

end Idealize.ShloMosaic.ScatterRows
-- ==== Proof.KRun.lean ====
/-
  The kernel's program, run: its three results as the specification's functions of the argument arrays.

  The attention result is the region's [100, 1, 4000] array read row-major as [400000, 1]: entry (e, 0) is block
  e / 4000's lane e % 4000, the attention weight of edge e. The new hidden state at (n, j) is zero plus the sum, over
  the edges whose target word is n, of the edge's row after Wh at column j.
-/
import proofs.«417665_j34840774705589_3_alg».proof.Proof.Gen.KernelIdeal.Frame
import proofs.«417665_j34840774705589_3_alg».proof.Proof.KArgs
import proofs.«417665_j34840774705589_3_alg».proof.Proof.KTail
import proofs.«417665_j34840774705589_3_alg».proof.Proof.KHost
import proofs.«417665_j34840774705589_3_alg».proof.Proof.KFinal
import proofs.«417665_j34840774705589_3_alg».proof.Proof.LibScatterRows
import Idealize.ShloMosaic.Lib.Pipeline.Value
import Idealize.ShloMosaic.Lib.StableHlo.Predicate

set_option maxRecDepth 16384

noncomputable section

namespace Cert.KernelIdeal.KRun

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The sampled-nodes mask: column 1 of the node table strictly between −1 and 100001. -/
def maskK (c : Dev nD) : IVec S200000 1 :=
  andi (cmpi .sgt (shapeCast S200000 (extractStridedSlice S200000x1 ![0, 1] (m ((c.tc : Thread nD τ).loc main_arg4)) slices_S200000x2_S200000x1_0_1) shapeCasts_S200000x1_S200000) (broadcastInDim S200000 ![] bcast_S_S200000 (constantI S_ 32 4294967295#32))) (cmpi .slt (shapeCast S200000 (extractStridedSlice S200000x1 ![0, 1] (m ((c.tc : Thread nD τ).loc main_arg4)) slices_S200000x2_S200000x1_0_1) shapeCasts_S200000x1_S200000) (broadcastInDim S200000 ![] bcast_S_S200000 (constantI S_ 32 100001#32)))

/-- An array [100, 1, 4000] that holds edge 4000·t + r's attention weight at (t, 0, r), read row-major as [400000, 1],
    is the attention weights edge by edge. -/
theorem attn_core (A : Cert.Spec.Args) (arr : S100x1x4000.Idx → EReal)
    (harr : ∀ (t : Fin 100) (r : Fin 4000), arr (ix3 t (0 : Fin 1) r) = A.alpha ⟨4000 * t.val + r.val, by omega⟩) :
    shapeCast S400000x1 arr shapeCasts_S100x1x4000_S400000x1 = A.alphaArr := by
  refine Cert.Spec.eq_arr2 (α := EReal) (a := 400000) (b := 1) _ _ fun e z => ?_
  have ht : e.val / 4000 < 100 := by have := e.isLt; omega
  have hr : e.val % 4000 < 4000 := Nat.mod_lt _ (by decide)
  rw [shapeCast_apply arr shapeCasts_S100x1x4000_S400000x1 (ix2 e z)
    (ix3 (⟨e.val / 4000, ht⟩ : Fin 100) (0 : Fin 1) (⟨e.val % 4000, hr⟩ : Fin 4000)) (by
      rw [Shape.rowMajor_val_three, Shape.rowMajor_val_two]
      have hz : z.val = 0 := by have := z.isLt; omega
      show (e.val / 4000 * 1 + 0) * 4000 + e.val % 4000 = e.val * 1 + z.val
      omega)]
  rw [harr]
  exact congrArg A.alpha (Fin.ext (by show 4000 * (e.val / 4000) + e.val % 4000 = e.val; omega))

/-- Rows [400000, 128] that hold each edge's message after Wh, scatter-added into zeros at the edges' target words,
    are the per-edge rows summed over each node's edges. -/
theorem rows_core (A : Cert.Spec.Args) (tgt : IVec S400000 32) (rows : S400000x128.Idx → EReal)
    (htgt : ∀ e : Fin 400000, tgt (ix1 e) = A.col 5 e) (hrows : ∀ (e : Fin 400000) (j : Fin 128), rows (ix2 e j) = A.msgWh e j) :
    Host.scatterAdd (F := Ideal) (φ := .f32) scatter_S200000x128_S400000x1_S400000x128_1_0_0_1
        (broadcastInDim S200000x128 ![] bcast_S_S200000x128 (constant (F := Ideal) S_ .f32 0x00000000#32))
        (broadcastInDim S400000x1 ![0] bcast_S400000_S400000x1_0 tgt) rows
      = Cert.Spec.arr2 A.hiddenK := by
  refine Cert.Spec.eq_arr2 (α := EReal) (a := 200000) (b := 128) _ _ fun n j => ?_
  rw [ScatterRows.scatterAdd_rows_apply scatter_S200000x128_S400000x1_S400000x128_1_0_0_1 rfl rfl rfl rfl]
  unfold Cert.Spec.Args.hiddenK Cert.Spec.Args.objSet
  refine congrArg₂ (· + ·) ?_ ?_
  · show Ideal.ofBits .f32 0x00000000#32 = 0
    exact Ideal.ofBits_zero_f32
  · refine Finset.sum_congr (Finset.filter_congr fun e _ => ?_) fun e _ => hrows e j
    have h1 : (ix2 e (0 : Fin 1) : S400000x1.Idx) = StableHlo.Predicate.ixP e := funext fun a => by
      match a with
      | ⟨0, _⟩ => rfl
      | ⟨1, _⟩ => rfl
    have h2 : (ix1 e : S400000.Idx) = Shape.Idx.ofFin e := funext fun a => by
      match a with
      | ⟨0, _⟩ => rfl
    rw [h1, StableHlo.Predicate.bcast_col1 bcast_S400000_S400000x1_0 tgt e, ← h2, htgt e]

theorem attn_eq (c : Dev nD) (hok : Cert.Spec.IdxOK (args m c)) :
    shapeCast S400000x1 ((dats m 0 c).arrAt 10 cfg0.N) shapeCasts_S100x1x4000_S400000x1 = (args m c).alphaArr :=
  attn_core (args m c) _ (KFinal.final10 m c hok)

theorem rows_eq (c : Dev nD) (hok : Cert.Spec.IdxOK (args m c)) :
    Host.scatterAdd scatter_S200000x128_S400000x1_S400000x128_1_0_0_1
        (broadcastInDim S200000x128 ![] bcast_S_S200000x128 (constant (F := Ideal) S_ .f32 0x00000000#32))
        (broadcastInDim S400000x1 ![0] bcast_S400000_S400000x1_0 (V m c main_v14 : IVec S400000 32))
        ((dats m 0 c).arrAt 11 cfg0.N)
      = Cert.Spec.arr2 (args m c).hiddenK :=
  rows_core (args m c) _ _ (KHost.V14_apply m c) (KFinal.final11 m c hok)

/-- Every weakly fair execution of the kernel's program ends with the three results at the specification's values and the
    arguments as they were. -/
theorem run (hok : ∀ c, Cert.Spec.IdxOK (args m c)) :
    θ_run defs (onTc (τ := τ) (main (F := Ideal))) ⟨m, fun _ => 0, ρ⟩ (fun r => ∀ c : Dev nD,
      r.2.mem ((c.tc : Thread nD τ).loc main_v30) = Cert.Spec.arr2 (args m c).hiddenK
      ∧ r.2.mem ((c.tc : Thread nD τ).loc main_v27) = (args m c).alphaArr
      ∧ r.2.mem ((c.tc : Thread nD τ).loc main_v8) = maskK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨
      ((h c).2 main_v30 (Pipeline.mem_restRefs_of main_v30 (by decide) (by decide))).trans
        ((KTail.tail_v30 m c).trans (rows_eq m c (hok c))),
      ((h c).2 main_v27 (Pipeline.mem_restRefs_of main_v27 (by decide) (by decide))).trans
        ((KTail.tail_v27 m c).trans (attn_eq m c (hok c))),
      ((h c).2 main_v8 (Pipeline.mem_restRefs_of main_v8 (by decide) (by decide))).trans
        ((KTail.tail_v8 m c).trans (KHost.V8_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 5).trans ((((dats m) 0 c).arrAt_in 5 rfl _).trans ((A_eq m c 5).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 7).trans ((((dats m) 0 c).arrAt_in 7 rfl _).trans ((A_eq m c 7).trans (V_main_arg10 m c))),
      (((h c).2 main_arg11 (Pipeline.mem_restRefs_of main_arg11 (by decide) (by decide))).trans (W_main_arg11 m (dats m) c)),
      ((h c).1 9).trans ((((dats m) 0 c).arrAt_in 9 rfl _).trans ((A_eq m c 9).trans (V_main_arg12 m c)))⟩) (run_main m ρ)

end Cert.KernelIdeal.KRun

end
-- ==== Proof.RefValue.lean ====
/-
  The reference program's values read at an index are the specification's functions of the argument arrays.

  Per edge e the reference gathers three rows (the source's hidden row, the relation's embedding, the embedding of
  the query's relation), forms the pre-activation by three products with the weight tables and a bias, applies
  max(·, 0), projects on one column, and applies 1 / (1 + exp(−·)); the message is that weight times the sum of
  the first two rows. Each row number is printed as "the word, or the word plus the table's height when the word
  is negative"; a word that is not negative is left as it is, so the row read is the clamped word itself.
-/
import proofs.«417665_j34840774705589_3_alg».proof.Proof.Gen.ReferenceIdeal.Read
import proofs.«417665_j34840774705589_3_alg».proof.Proof.Spec
import proofs.«417665_j34840774705589_3_alg».proof.Proof.LibRowGather
import Idealize.ShloMosaic.Lib.IdealHost
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Idealize.ShloMosaic.RowGather

/-- A row number that is not negative is left as it is by "add the table's height when negative". -/
theorem wrap_of_nonneg (w N : BitVec 32) (h : 0 ≤ w.toInt) :
    Scalar.select (IntOp.cmpi .slt w 0#32) (IntOp.addi w N) w = w := by
  have h0 : (0#32 : BitVec 32).toInt = 0 := by decide
  have hs : w.slt 0#32 = false := by
    simp only [BitVec.slt, h0, decide_eq_false_iff_not, not_lt]; exact h
  unfold Scalar.select IntOp.cmpi
  simp only [hs]
  exact if_neg (by decide)

/-- Column c of the edge list, as the [400000, 1] slice reshaped to a vector and broadcast back to a column. -/
theorem ix_col4 (e : Fin 400000) :
    Read.idx_main_v9 (Read.idx_main_v10 (Read.idx_main_v22 (ix2 e (0 : Fin 1)))) = ix2 e (4 : Fin 6) :=
  funext fun a => Fin.ext (by match a with | ⟨0, _⟩ => exact Nat.div_one _ | ⟨1, _⟩ => rfl)
theorem ix_col2 (e : Fin 400000) :
    Read.idx_main_v11 (Read.idx_main_v12 (Read.idx_main_v29 (ix2 e (0 : Fin 1)))) = ix2 e (2 : Fin 6) :=
  funext fun a => Fin.ext (by match a with | ⟨0, _⟩ => exact Nat.div_one _ | ⟨1, _⟩ => rfl)
theorem ix_col0 (e : Fin 400000) :
    Read.idx_main_v15 (Read.idx_main_v16 (Read.idx_main_v43 (ix2 e (0 : Fin 1)))) = ix2 e (0 : Fin 6) :=
  funext fun a => Fin.ext (by match a with | ⟨0, _⟩ => exact Nat.div_one _ | ⟨1, _⟩ => rfl)
theorem ix_col5 (e : Fin 400000) :
    Read.idx_main_v13 (Read.idx_main_v14 (Read.idx_main_v68 (ix2 e (0 : Fin 1)))) = ix2 e (5 : Fin 6) :=
  funext fun a => Fin.ext (by match a with | ⟨0, _⟩ => exact Nat.div_one _ | ⟨1, _⟩ => rfl)
theorem ix_q (q : Fin 256) : Read.idx_main_v36 (ix2 q (0 : Fin 1)) = ix1 q :=
  funext fun a => Fin.ext (by match a with | ⟨0, _⟩ => rfl)

/-- The source column's start indices are the source words. -/
theorem start_sub (A : Cert.Spec.Args) (hok : Cert.Spec.IdxOK A) (e : Fin 400000) :
    Read.val_main_v22 (F := Ideal) A.edges (ix2 e (0 : Fin 1)) = A.col 4 e := by
  rw [Read.val_main_v22_apply, Read.val_main_v21_apply, Read.val_main_v18_apply, Read.val_main_v20_apply,
    Read.val_main_v17_apply, Read.val_main_c_1_apply, Read.val_main_v10_apply, Read.val_main_v9_apply, ix_col4]
  exact wrap_of_nonneg _ _ (hok.sub_lo e)

/-- The relation column's start indices are the relation words. -/
theorem start_rel (A : Cert.Spec.Args) (hok : Cert.Spec.IdxOK A) (e : Fin 400000) :
    Read.val_main_v29 (F := Ideal) A.edges (ix2 e (0 : Fin 1)) = A.col 2 e := by
  rw [Read.val_main_v29_apply, Read.val_main_v28_apply, Read.val_main_v25_apply, Read.val_main_v27_apply,
    Read.val_main_v24_apply, Read.val_main_c_3_apply, Read.val_main_v12_apply, Read.val_main_v11_apply, ix_col2]
  exact wrap_of_nonneg _ _ (hok.rel_lo e)

/-- The query column's start indices are the query words. -/
theorem start_q (A : Cert.Spec.Args) (hok : Cert.Spec.IdxOK A) (e : Fin 400000) :
    Read.val_main_v43 (F := Ideal) A.edges (ix2 e (0 : Fin 1)) = A.col 0 e := by
  rw [Read.val_main_v43_apply, Read.val_main_v42_apply, Read.val_main_v39_apply, Read.val_main_v41_apply,
    Read.val_main_v38_apply, Read.val_main_c_7_apply, Read.val_main_v16_apply, Read.val_main_v15_apply, ix_col0]
  exact wrap_of_nonneg _ _ (hok.q_lo e)

/-- The start indices into the relation table for the queries' relations are the queries' relation words. -/
theorem start_qrel (A : Cert.Spec.Args) (hok : Cert.Spec.IdxOK A) (q : Fin 256) :
    Read.val_main_v36 (F := Ideal) A.qrel (ix2 q (0 : Fin 1)) = A.qrel (ix1 q) := by
  rw [Read.val_main_v36_apply, Read.val_main_v35_apply, Read.val_main_v32_apply, Read.val_main_v34_apply,
    Read.val_main_v31_apply, Read.val_main_c_5_apply, ix_q]
  exact wrap_of_nonneg _ _ (hok.qrel_lo q)

/-- The gathered source rows. -/
theorem ref_hs (A : Cert.Spec.Args) (hok : Cert.Spec.IdxOK A) (e : Fin 400000) (d : Fin 128) :
    Read.val_main_v23 (F := Ideal) A.hidden A.edges (ix2 e d) = A.hs e d := by
  unfold Read.val_main_v23
  rw [gather_rows_apply _ rfl rfl rfl rfl rfl _ _ e d (by decide), start_sub A hok e]
  rfl

/-- The gathered relation rows. -/
theorem ref_hr (A : Cert.Spec.Args) (hok : Cert.Spec.IdxOK A) (e : Fin 400000) (d : Fin 128) :
    Read.val_main_v30 (F := Ideal) A.edges A.re (ix2 e d) = A.hr e d := by
  unfold Read.val_main_v30
  rw [gather_rows_apply _ rfl rfl rfl rfl rfl _ _ e d (by decide), start_rel A hok e]
  rfl

/-- The relation rows of the queries. -/
theorem ref_hqTab (A : Cert.Spec.Args) (hok : Cert.Spec.IdxOK A) (q : Fin 256) (d : Fin 128) :
    Read.val_main_v37 (F := Ideal) A.qrel A.re (ix2 q d) = A.hqTab q d := by
  unfold Read.val_main_v37
  rw [gather_rows_apply _ rfl rfl rfl rfl rfl _ _ q d (by decide), start_qrel A hok q]
  rfl

/-- The gathered query rows. -/
theorem ref_hq (A : Cert.Spec.Args) (hok : Cert.Spec.IdxOK A) (e : Fin 400000) (d : Fin 128) :
    Read.val_main_v44 (F := Ideal) A.qrel A.edges A.re (ix2 e d) = A.hq e d := by
  unfold Read.val_main_v44
  rw [gather_rows_apply _ rfl rfl rfl rfl rfl _ _ e d (by decide), start_q A hok e, ref_hqTab A hok]
  rfl

/-- The index functions of the three [400000,128]·[128,128] products, of the bias broadcast, of the projection and of
    the weight's broadcast along the row, at a pair of coordinates. -/
theorem ix_l45 (e : Fin 400000) (k d : Fin 128) : Read.lidx_main_v45 (ix2 e k) d = ix2 e d :=
  funext fun a => Fin.ext (by match a with | ⟨0, _⟩ => rfl | ⟨1, _⟩ => rfl)
theorem ix_r45 (e : Fin 400000) (k d : Fin 128) : Read.ridx_main_v45 (ix2 e k) d = ix2 d k :=
  funext fun a => Fin.ext (by match a with | ⟨0, _⟩ => rfl | ⟨1, _⟩ => rfl)
theorem ix_l46 (e : Fin 400000) (k d : Fin 128) : Read.lidx_main_v46 (ix2 e k) d = ix2 e d :=
  funext fun a => Fin.ext (by match a with | ⟨0, _⟩ => rfl | ⟨1, _⟩ => rfl)
theorem ix_r46 (e : Fin 400000) (k d : Fin 128) : Read.ridx_main_v46 (ix2 e k) d = ix2 d k :=
  funext fun a => Fin.ext (by match a with | ⟨0, _⟩ => rfl | ⟨1, _⟩ => rfl)
theorem ix_l48 (e : Fin 400000) (k d : Fin 128) : Read.lidx_main_v48 (ix2 e k) d = ix2 e d :=
  funext fun a => Fin.ext (by match a with | ⟨0, _⟩ => rfl | ⟨1, _⟩ => rfl)
theorem ix_r48 (e : Fin 400000) (k d : Fin 128) : Read.ridx_main_v48 (ix2 e k) d = ix2 d k :=
  funext fun a => Fin.ext (by match a with | ⟨0, _⟩ => rfl | ⟨1, _⟩ => rfl)
theorem ix_bias (e : Fin 400000) (k : Fin 128) : Read.idx_main_v50 (Read.idx_main_v51 (ix2 e k)) = ix1 k :=
  funext fun a => Fin.ext (by match a with | ⟨0, _⟩ => rfl)
theorem ix_l54 (e : Fin 400000) (k : Fin 128) : Read.lidx_main_v54 (ix2 e (0 : Fin 1)) k = ix2 e k :=
  funext fun a => Fin.ext (by match a with | ⟨0, _⟩ => rfl | ⟨1, _⟩ => rfl)
theorem ix_r54 (e : Fin 400000) (k : Fin 128) : Read.ridx_main_v54 (ix2 e (0 : Fin 1)) k = ix2 k (0 : Fin 1) :=
  funext fun a => Fin.ext (by match a with | ⟨0, _⟩ => rfl | ⟨1, _⟩ => rfl)
theorem ix_wb (e : Fin 400000) : Read.idx_main_v55 (Read.idx_main_v56 (ix2 e (0 : Fin 1))) = ix1 (0 : Fin 1) :=
  funext fun a => Fin.ext (by match a with | ⟨0, _⟩ => rfl)
theorem ix_bcast_alpha (e : Fin 400000) (k : Fin 128) : Read.idx_main_v65 (ix2 e k) = ix2 e (0 : Fin 1) :=
  funext fun a => Fin.ext (by match a with | ⟨0, _⟩ => rfl | ⟨1, _⟩ => rfl)

/-- The pre-activation: three products with the weight tables, summed, plus the bias. -/
theorem ref_preAct (A : Cert.Spec.Args) (hok : Cert.Spec.IdxOK A) (e : Fin 400000) (k : Fin 128) :
    Read.val_main_v52 (F := Ideal) A.qrel A.hidden A.edges A.re A.Ws A.Wr A.Wq A.b (ix2 e k) = A.preAct e k := by
  rw [Read.val_main_v52_apply, Read.val_main_v49_apply, Read.val_main_v47_apply, Read.val_main_v45_apply,
    Read.val_main_v46_apply, Read.val_main_v48_apply, Read.val_main_v51_apply, Read.val_main_v50_apply]
  simp only [ix_l45, ix_r45, ix_l46, ix_r46, ix_l48, ix_r48, ix_bias, ref_hs A hok, ref_hr A hok, ref_hq A hok,
    Ideal.addf_def]
  rfl

/-- max(·, 0) of the pre-activation. -/
theorem ref_relu (A : Cert.Spec.Args) (hok : Cert.Spec.IdxOK A) (e : Fin 400000) (k : Fin 128) :
    Read.val_main_v53 (F := Ideal) A.qrel A.hidden A.edges A.re A.Ws A.Wr A.Wq A.b (ix2 e k) = max (A.preAct e k) 0 := by
  rw [Read.val_main_v53_apply, Read.val_main_call0_v0_apply, Read.val_main_call0_cst_apply, ref_preAct A hok]
  simp only [Ideal.maximumf_def, Ideal.ofBits_def, Ideal.ofBits_zero_f32]

/-- The projection on the one output column plus its bias. -/
theorem ref_logit (A : Cert.Spec.Args) (hok : Cert.Spec.IdxOK A) (e : Fin 400000) :
    Read.val_main_v57 (F := Ideal) A.qrel A.hidden A.edges A.re A.Ws A.Wr A.Wq A.b A.wa A.wb (ix2 e (0 : Fin 1))
      = A.logit e := by
  rw [Read.val_main_v57_apply, Read.val_main_v54_apply, Read.val_main_v56_apply, Read.val_main_v55_apply]
  simp only [ix_l54, ix_r54, ix_wb, ref_relu A hok, Ideal.addf_def]
  rfl

/-- The attention weight: one over one plus the exponential of the negated projection. -/
theorem ref_alpha (A : Cert.Spec.Args) (hok : Cert.Spec.IdxOK A) (e : Fin 400000) :
    Read.val_main_v63 (F := Ideal) A.qrel A.hidden A.edges A.re A.Ws A.Wr A.Wq A.b A.wa A.wb (ix2 e (0 : Fin 1)) = A.alpha e := by
  rw [Read.val_main_v63_apply, Read.val_main_v62_apply, Read.val_main_cst_9_apply, Read.val_main_v61_apply,
    Read.val_main_v60_apply, Read.val_main_cst_apply, Read.val_main_v59_apply, Read.val_main_v58_apply,
    ref_logit A hok]
  simp only [Ideal.hostDivf_def, Ideal.addf_def, Ideal.hostUnary_exp_def, Ideal.hostNegf_def, Ideal.negf_def,
    Ideal.ofBits_def, Ideal.ofBits_one_f32]
  rfl

/-- The message: the attention weight times the sum of the source row and the relation row. -/
theorem ref_msg (A : Cert.Spec.Args) (hok : Cert.Spec.IdxOK A) (e : Fin 400000) (k : Fin 128) :
    Read.val_main_v66 (F := Ideal) A.qrel A.hidden A.edges A.re A.Ws A.Wr A.Wq A.b A.wa A.wb (ix2 e k) = A.msg e k := by
  rw [Read.val_main_v66_apply, Read.val_main_v65_apply, Read.val_main_v64_apply, ix_bcast_alpha, ref_alpha A hok,
    ref_hs A hok, ref_hr A hok]
  simp only [Ideal.mulf_def, Ideal.addf_def]
  rfl

/-- The target column as the [400000, 1] array of scatter indices. -/
theorem ref_obj (A : Cert.Spec.Args) (e : Fin 400000) : Read.val_main_v68 (F := Ideal) A.edges (ix2 e (0 : Fin 1)) = A.col 5 e := by
  rw [Read.val_main_v68_apply, Read.val_main_v14_apply, Read.val_main_v13_apply, ix_col5]
  rfl

end Cert.ReferenceIdeal.RefValue

end
-- ==== Proof.RefRun.lean ====
/-
  The reference's results as the specification's functions of the argument arrays.

  The new hidden state at (n, j) is Σ_k agg (n, k) · Wh (k, j), where agg is zero plus the scatter-add of the
  messages at the edges' target nodes: at (n, k) the sum of msg e k over the edges e whose target word is n.
-/
import proofs.«417665_j34840774705589_3_alg».proof.Proof.Gen.ReferenceIdeal.Read
import proofs.«417665_j34840774705589_3_alg».proof.Proof.Spec
import proofs.«417665_j34840774705589_3_alg».proof.Proof.RefValue
import proofs.«417665_j34840774705589_3_alg».proof.Proof.LibScatterRows

set_option maxRecDepth 16384

noncomputable section

namespace Cert.ReferenceIdeal.RefRun

open Idealize.ShloMosaic Idealize.ShloMosaic.ValueIdx Cert.ReferenceIdeal

/-- The attention result, entry by entry. -/
theorem alpha_eq (A : Cert.Spec.Args) (hok : Cert.Spec.IdxOK A) :
    Read.val_main_v63 (F := Ideal) A.qrel A.hidden A.edges A.re A.Ws A.Wr A.Wq A.b A.wa A.wb = A.alphaArr := by
  refine Cert.Spec.eq_arr2 (α := EReal) (a := 400000) (b := 1) _ _ fun e z => ?_
  obtain rfl : z = 0 := Subsingleton.elim _ _
  exact RefValue.ref_alpha A hok e

/-- The new hidden state, entry by entry: the sum over the edges of a node, then Wh. -/
theorem hidden_eq (A : Cert.Spec.Args) (hok : Cert.Spec.IdxOK A) :
    Read.val_main_v70 (F := Ideal) A.qrel A.hidden A.edges A.re A.Ws A.Wr A.Wq A.b A.wa A.wb A.Wh = Cert.Spec.arr2 A.hiddenR := by
  refine Cert.Spec.eq_arr2 (α := EReal) (a := 200000) (b := 128) _ _ fun n j => ?_
  rw [Read.val_main_v70_apply]
  unfold Cert.Spec.Args.hiddenR
  refine Finset.sum_congr rfl fun k _ => ?_
  have el : Read.lidx_main_v70 (ix2 n j) k = ix2 n k := funext fun a => Fin.ext (by
    match a with
    | ⟨0, _⟩ => rfl
    | ⟨1, _⟩ => rfl)
  have er : Read.ridx_main_v70 (ix2 n j) k = ix2 k j := funext fun a => Fin.ext (by
    match a with
    | ⟨0, _⟩ => rfl
    | ⟨1, _⟩ => rfl)
  rw [el, er]
  refine congrArg (· * A.Wh (ix2 k j)) ?_
  unfold Read.val_main_v69
  rw [ScatterRows.scatterAdd_rows_apply scatter_S200000x128_S400000x1_S400000x128_1_0_0_1 rfl rfl rfl rfl]
  unfold Cert.Spec.Args.objSet
  refine congrArg₂ (· + ·) ?_ ?_
  · show Ideal.ofBits .f32 0x00000000#32 = 0
    exact Ideal.ofBits_zero_f32
  · refine Finset.sum_congr (Finset.filter_congr fun e _ => ?_) fun e _ => RefValue.ref_msg A hok e k
    rw [RefValue.ref_obj A e]

end Cert.ReferenceIdeal.RefRun

end
-- ==== Proof.lean ====
/-
  The certificate: an edge-attention layer. Per edge e the kernel and the reference both compute
    alpha e = logistic (Σ_k max (preAct e k) 0 · wa k + wb),   msg e k = alpha e · (hs e k + hr e k)
  with preAct the sum of three 128-wide projections (of the source row, the relation row and the query's relation
  row) plus a bias. The kernel finds the relation and query rows by one-hot matrix products against small tables
  that already carry their projections; a one-hot row times a table is the table's row, so under index inputs in
  range this is the reference's row gather followed by its projection. The new hidden state of node n is, in the
  kernel, the sum over n's edges of (msg e · Wh) and, in the reference, (the sum over n's edges of msg e) · Wh: equal
  because every message entry and every entry of Wh is a real number (the logistic of any extended real is a real
  in [0, 1]; the table entries are finite by the precondition), so the finite sums exchange and the factor moves out.
  The attention weights and the sampled-nodes mask are the same functions of the arguments in both programs.

  The kernel's frames are the generated frame certificates; the reference's frame is its generated run; the ledger of
  the ideal pass is empty.
-/
import proofs.«417665_j34840774705589_3_alg».proof.Defs
import proofs.«417665_j34840774705589_3_alg».proof.Proof.Gen.Kernel
import proofs.«417665_j34840774705589_3_alg».proof.Proof.Gen.Kernel.Skeleton
import proofs.«417665_j34840774705589_3_alg».proof.Proof.Gen.Kernel.Launch
import proofs.«417665_j34840774705589_3_alg».proof.Proof.Gen.Kernel.Points
import proofs.«417665_j34840774705589_3_alg».proof.Proof.Gen.Kernel.Frame
import proofs.«417665_j34840774705589_3_alg».proof.Proof.Gen.KernelIdeal
import proofs.«417665_j34840774705589_3_alg».proof.Proof.Gen.KernelIdeal.Skeleton
import proofs.«417665_j34840774705589_3_alg».proof.Proof.Gen.KernelIdeal.Launch
import proofs.«417665_j34840774705589_3_alg».proof.Proof.Gen.KernelIdeal.Points
import proofs.«417665_j34840774705589_3_alg».proof.Proof.Gen.KernelIdeal.Frame
import proofs.«417665_j34840774705589_3_alg».proof.Proof.Gen.ReferenceIdeal
import proofs.«417665_j34840774705589_3_alg».proof.Proof.Gen.ReferenceIdeal.Run
import proofs.«417665_j34840774705589_3_alg».proof.Proof.Gen.ReferenceIdeal.Read
import proofs.«417665_j34840774705589_3_alg».proof.Proof.Gen.Pre_finite_inputs
import proofs.«417665_j34840774705589_3_alg».proof.Proof.Spec
import proofs.«417665_j34840774705589_3_alg».proof.Proof.Linear
import proofs.«417665_j34840774705589_3_alg».proof.Proof.PreFacts
import proofs.«417665_j34840774705589_3_alg».proof.Proof.KArgs
import proofs.«417665_j34840774705589_3_alg».proof.Proof.RArgs
import proofs.«417665_j34840774705589_3_alg».proof.Proof.KRun
import proofs.«417665_j34840774705589_3_alg».proof.Proof.RefRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- Both programs, run from memories that agree on the arguments and satisfy the precondition, end with the new hidden
    state at the kernel's order of the two linear steps (which is the reference's, the entries being real), the attention
    weights and the mask. -/
theorem algebraic : Cert.algebraic_KernelIdeal_ReferenceIdeal := by
  intro m ρ m' ρ' hpre hagree
  have hP : ∀ c, Cert.Spec.IdxOK (Cert.KernelIdeal.args m c) ∧ Cert.Spec.FinOK (Cert.KernelIdeal.args m c) :=
    fun c => Cert.PreFacts.of_pre _ _ _ _ _ _ _ _ _ _ _ _ _ (hpre c)
  have hargs : ∀ c, Cert.ReferenceIdeal.args m' c = Cert.KernelIdeal.args m c := fun c => by
    unfold Cert.ReferenceIdeal.args Cert.KernelIdeal.args
    rw [(hagree c).2.1, (hagree c).2.2.1, (hagree c).2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  refine ⟨fun c => Cert.Spec.arr2 (Cert.KernelIdeal.args m c).hiddenK, fun c => (Cert.KernelIdeal.args m c).alphaArr,
    fun c => Cert.KernelIdeal.KRun.maskK m c, Cert.KernelIdeal.KRun.run m ρ (fun c => (hP c).1), ?_⟩
  refine (θ_run Cert.ReferenceIdeal.defs _ _).mono (fun r h c => ⟨?_, ?_, ?_, (h c).2.2.2⟩)
    (Cert.ReferenceIdeal.Value.run (F := Ideal) m' ρ')
  · refine ((h c).1.trans (Cert.ReferenceIdeal.Read.val_main_v70_eq m' c)).trans ?_
    refine (Cert.ReferenceIdeal.RefRun.hidden_eq (Cert.ReferenceIdeal.args m' c) (by rw [hargs c]; exact (hP c).1)).trans ?_
    rw [hargs c]
    exact congrArg Cert.Spec.arr2 (funext fun n => funext fun j =>
      (Cert.Spec.hiddenK_eq_hiddenR (Cert.KernelIdeal.args m c) (hP c).2 n j).symm)
  · refine (h c).2.1.trans ?_
    refine (Cert.ReferenceIdeal.RefRun.alpha_eq (Cert.ReferenceIdeal.args m' c) (by rw [hargs c]; exact (hP c).1)).trans ?_
    rw [hargs c]
  · refine (h c).2.2.1.trans ?_
    rw [(hagree c).2.2.2.2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
